-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_v10 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v10 main_v16
  main_v17

def fn {F : FTy → Type} [FloatOps F] (main_arg0 : FVec F S8192x4096 .f32) (main_arg1 : IVec S8192 32) (main_arg2 : IVec S8192 32) (main_arg3 : IVec S8192x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 4096#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  let main_c_3 : IVec S_ 32 := constantI S_ 32 0#32
  let main_v11 : IVec S8192 32 := broadcastInDim S8192 ![] bcast_S_S8192 main_c_3
  let main_v12 : IVec S8192 1 := cmpi .sge main_arg2 main_v11
  let main_c_4 : IVec S_ 32 := constantI S_ 32 4096#32
  let main_v13 : IVec S8192 32 := broadcastInDim S8192 ![] bcast_S_S8192 main_c_4
  let main_v14 : IVec S8192 1 := cmpi .slt main_arg2 main_v13
  let main_v15 : IVec S8192 1 := andi main_v12 main_v14
  let main_c_5 : IVec S_ 1 := constantI S_ 1 1#1
  fn_part1 (F := F) main_v10 main_v15 main_c_5
-- ==== Kernel.lean ====
abbrev S8192x4096 : Shape := ⟨2, ![8192, 4096]⟩
abbrev S8192 : Shape := ⟨1, ![8192]⟩
abbrev S8192x1 : Shape := ⟨2, ![8192, 1]⟩
abbrev S256x4096 : Shape := ⟨2, ![256, 4096]⟩
abbrev S256x1 : Shape := ⟨2, ![256, 1]⟩
abbrev S256x2048 : Shape := ⟨2, ![256, 2048]⟩
abbrev S256 : Shape := ⟨1, ![256]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S8192, .i32⟩
  | .hbm, ⟨3, _⟩ => ⟨S8192x4096, .i32⟩
  | .hbm, ⟨4, _⟩ => ⟨S8192x1, .i32⟩
  | .hbm, ⟨5, _⟩ => ⟨S8192x1, .i32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x1, .i32⟩
  | .local _ .vmem, ⟨5, _⟩ => ⟨S256x1, .i32⟩
  | .local _ .vmem, ⟨6, _⟩ => ⟨S256x1, .i32⟩
  | .local _ .vmem, ⟨7, _⟩ => ⟨S256x1, .i32⟩
  | .local _ .vmem, ⟨8, _⟩ => ⟨S256x1, .f32⟩
  | .local _ .vmem, ⟨9, _⟩ => ⟨S256x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S8192x1 : S8192.ShapeCasts S8192x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x2048_0_0 : ∀ a, (![0, 0] : Fin 2 → Nat) a + S256x2048.size a ≤ S256x4096.size a
  h_S256x2048 : 0 < S256x2048.numel
  iota_S256x2048_d1_w32 : S256x2048.Iotas .tc 32 [1]
  broadcasts_S256x1_S256x2048 : S256x1.Broadcasts S256x2048
  reduces_S256x2048_S256 : S256x2048.Reduces [1] S256
  shapeCasts_S256_S256x1 : S256.ShapeCasts S256x1
  inb_S256x4096_S256x2048_0_2048 : ∀ a, (![0, 2048] : Fin 2 → Nat) a + S256x2048.size a ≤ S256x4096.size a
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .i32 = 32 ∨ (Rect.block (s := S8192x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .i32 = 32 ∨ (Rect.block (s := S8192x1) S256x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 128
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S8192, .i32⟩
  | .hbm, ⟨3, _⟩ => ⟨S8192x4096, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x1, .i32⟩
  | .hbm, ⟨21, _⟩ => ⟨S8192x2, .i32⟩
  | .hbm, ⟨22, _⟩ => ⟨S_, .i32⟩
  | .hbm, ⟨23, _⟩ => ⟨S8192, .i32⟩
  | .hbm, ⟨24, _⟩ => ⟨S8192x4096, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S8192x1, .i32⟩
  | .hbm, ⟨40, _⟩ => ⟨S8192x1, .i32⟩
  | .hbm, ⟨41, _⟩ => ⟨S8192x2, .i32⟩
  | .hbm, ⟨42, _⟩ => ⟨S_, .i32⟩
  | .hbm, ⟨43, _⟩ => ⟨S8192, .i32⟩
  | .hbm, ⟨44, _⟩ => ⟨S8192x4096, .i32⟩
  | .hbm, ⟨45, _⟩ => ⟨S_, .i32⟩
  | .hbm, ⟨46, _⟩ => ⟨S8192x4096, .i32⟩
  | .hbm, ⟨47, _⟩ => ⟨S8192x4096, .i1⟩
  | .hbm, ⟨48, _⟩ => ⟨S8192x1, .i32⟩
  | .hbm, ⟨49, _⟩ => ⟨S_, .i32⟩
  | .hbm, ⟨50, _⟩ => ⟨S8192x1, .i32⟩
  | .hbm, ⟨51, _⟩ => ⟨S8192x1, .i1⟩
  | .hbm, ⟨52, _⟩ => ⟨S_, .i32⟩
  | .hbm, ⟨53, _⟩ => ⟨S8192x1, .i32⟩
  | .hbm, ⟨54, _⟩ => ⟨S8192x1, .i32⟩
  | .hbm, ⟨55, _⟩ => ⟨S8192x1, .i32⟩
  | .hbm, ⟨56, _⟩ => ⟨S8192x1x1, .i32⟩
  | .hbm, ⟨57, _⟩ => ⟨S1, .i32⟩
  | .hbm, ⟨58, _⟩ => ⟨S_, .i32⟩
  | .hbm, ⟨59, _⟩ => ⟨S8192x1x1, .i32⟩
  | .hbm, ⟨60, _⟩ => ⟨S8192x1x1, .i1⟩
  | .hbm, ⟨61, _⟩ => ⟨S1x1x1, .i32⟩
  | .hbm, ⟨62, _⟩ => ⟨S8192x1x1, .i32⟩
  | .hbm, ⟨63, _⟩ => ⟨S8192x1x1, .i1⟩
  | .hbm, ⟨64, _⟩ => ⟨S8192x1x1, .i1⟩
  | .hbm, ⟨65, _⟩ => ⟨S_, .i1⟩
  | .hbm, ⟨66, _⟩ => ⟨S8192x1, .i1⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x4096, .f32⟩
  | .hbm, ⟨72, _⟩ => ⟨S8192x4096, .f32⟩
  | .hbm, ⟨73, _⟩ => ⟨S_, .f32⟩
  | .hbm, ⟨74, _⟩ => ⟨S8192x4096, .f32⟩
  | .hbm, ⟨75, _⟩ => ⟨S8192x4096, .f32⟩
  | .hbm, ⟨76, _⟩ => ⟨S8192x4096, .f32⟩
  | .hbm, ⟨77, _⟩ => ⟨S8192x4096, .f32⟩
  | .hbm, ⟨78, _⟩ => ⟨S8192x4096, .i1⟩
  | .hbm, ⟨79, _⟩ => ⟨S8192x4096, .f32⟩
  | .hbm, ⟨80, _⟩ => ⟨S8192x4096, .f32⟩
  | .hbm, ⟨81, _⟩ => ⟨S8192x4096, .f32⟩
  | .hbm, ⟨82, _⟩ => ⟨S8192x4096, .f32⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S8192x4096, .f32⟩
  | .hbm, ⟨87, _⟩ => ⟨S8192x4096, .f32⟩
  | .hbm, ⟨88, _⟩ => ⟨S8192x4096, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S8192x4096, .f32⟩
  | .hbm, ⟨93, _⟩ => ⟨S8192x4096, .f32⟩
  | .hbm, ⟨94, _⟩ => ⟨S_, .f32⟩
  | .hbm, ⟨95, _⟩ => ⟨S8192x4096, .f32⟩
  | .hbm, ⟨96, _⟩ => ⟨S8192x4096, .f32⟩
  | .hbm, ⟨97, _⟩ => ⟨S_, .f32⟩
  | .hbm, ⟨98, _⟩ => ⟨S8192x4096, .f32⟩
  | .hbm, ⟨99, _⟩ => ⟨S8192x4096, .f32⟩
  | .hbm, ⟨100, _⟩ => ⟨S_, .f32⟩
  | .hbm, ⟨101, _⟩ => ⟨S8192x4096, .f32⟩
  | .hbm, ⟨102, _⟩ => ⟨S8192x4096, .f32⟩
  | .hbm, ⟨103, _⟩ => ⟨S_, .f32⟩
  | .hbm, ⟨104, _⟩ => ⟨S8192x4096, .f32⟩
  | .hbm, ⟨105, _⟩ => ⟨S8192x4096, .f32⟩
  | .hbm, ⟨106, _⟩ => ⟨S8192x4096, .f32⟩
  | .hbm, ⟨107, _⟩ => ⟨S8192x4096, .f32⟩
  | .hbm, ⟨108, _⟩ => ⟨S_, .f32⟩
  | .hbm, ⟨109, _⟩ => ⟨S8192, .f32⟩
  | .hbm, ⟨110, _⟩ => ⟨S_, .f32⟩
  | .hbm, ⟨111, _⟩ => ⟨S8192, .f32⟩
  | .hbm, ⟨112, _⟩ => ⟨S8192, .i1⟩
  | .hbm, ⟨113, _⟩ => ⟨S8192x4096, .f32⟩
  | .hbm, ⟨114, _⟩ => ⟨S_, .f32⟩
  | .hbm, ⟨115, _⟩ => ⟨S8192, .f32⟩
  | .hbm, ⟨116, _⟩ => ⟨S_, .f32⟩
  | .hbm, ⟨117, _⟩ => ⟨S8192, .f32⟩
  | .hbm, ⟨118, _⟩ => ⟨S8192, .f32⟩
  | .hbm, ⟨119, _⟩ => ⟨S8192, .f32⟩
  | .hbm, ⟨120, _⟩ => ⟨S_, .f32⟩
  | .hbm, ⟨121, _⟩ => ⟨S_, .f32⟩
  | .hbm, ⟨122, _⟩ => ⟨S8192, .f32⟩
  | .hbm, ⟨123, _⟩ => ⟨S8192, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_c_1 : Ref sig .tc := ⟨.hbm, 57, rfl⟩
abbrev main_call0_c_2 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_3 : Ref sig .tc := ⟨.hbm, 65, rfl⟩
abbrev main_call0_v12 : Ref sig .tc := ⟨.hbm, 66, rfl⟩
abbrev main_call0_v13 : Ref sig .tc := ⟨.hbm, 67, rfl⟩
abbrev main_call0_cst : Ref sig .tc := ⟨.hbm, 68, rfl⟩
abbrev main_call0_v14 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_cst : Ref sig .tc := ⟨.hbm, 89, rfl⟩
abbrev main_cst_10 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v40 : Ref sig .tc := ⟨.hbm, 96, rfl⟩
abbrev main_cst_11 : Ref sig .tc := ⟨.hbm, 97, rfl⟩
abbrev main_v41 : Ref sig .tc := ⟨.hbm, 98, rfl⟩
abbrev main_v42 : Ref sig .tc := ⟨.hbm, 99, rfl⟩
abbrev main_cst_12 : Ref sig .tc := ⟨.hbm, 100, rfl⟩
abbrev main_v43 : Ref sig .tc := ⟨.hbm, 101, rfl⟩
abbrev main_v44 : Ref sig .tc := ⟨.hbm, 102, rfl⟩
abbrev main_cst_13 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_cst_14 : Ref sig .tc := ⟨.hbm, 108, rfl⟩
abbrev main_v49 : Ref sig .tc := ⟨.hbm, 109, rfl⟩
abbrev main_cst_15 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_16 : Ref sig .tc := ⟨.hbm, 114, rfl⟩
abbrev main_v53 : Ref sig .tc := ⟨.hbm, 115, rfl⟩
abbrev main_cst_17 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_cst_18 : Ref sig .tc := ⟨.hbm, 120, rfl⟩
abbrev main_call3_v0 : Ref sig .tc := ⟨.hbm, 121, rfl⟩
abbrev main_call3_v1 : Ref sig .tc := ⟨.hbm, 122, rfl⟩
abbrev main_v57 : Ref sig .tc := ⟨.hbm, 123, rfl⟩
abbrev main_cst_19 : Ref sig .tc := ⟨.hbm, 124, rfl⟩
abbrev main_v58 : Ref sig .tc := ⟨.hbm, 125, rfl⟩
abbrev main_cst_20 : Ref sig .tc := ⟨.hbm, 126, rfl⟩
abbrev main_v59 : Ref sig .tc := ⟨.hbm, 127, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S_S8192x4096 : S_.BroadcastsInDim S8192x4096 (![] : Fin 0 → Fin S8192x4096.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  bcast_S8192x1_S8192x4096_0_1 : S8192x1.BroadcastsInDim S8192x4096 (![0, 1] : Fin 2 → Fin S8192x4096.rank)
  reducesTo_S8192x4096_S8192_d1 : S8192x4096.ReducesTo [1] S8192
  reducesTo_S8192_S_d0 : S8192.ReducesTo [0] S_
  scatter_S8192x4096_S8192x2_S8192_n_01_01_1_wf : ScatterDims.WF S8192x4096 S8192x2 S8192 [] [0, 1] [0, 1] 1
  gather_S8192x4096_S8192x1x1_S8192x1_n_1_0_0_1_2_11_wf : GatherDims.WF S8192x4096 S8192x1x1 S8192x1 [] [1] [0] [1] [0] 2 ![1, 1]

variable [Facts₀]

def scatter_S8192x4096_S8192x2_S8192_n_01_01_1 : ScatterDims S8192x4096 S8192x2 S8192 where
  updateWindowDims := []
  insertedWindowDims := [0, 1]
  scatterDimsToOperandDims := [0, 1]
  indexVectorDim := 1
  wf := scatter_S8192x4096_S8192x2_S8192_n_01_01_1_wf
def gather_S8192x4096_S8192x1x1_S8192x1_n_1_0_0_1_2_11 : GatherDims S8192x4096 S8192x1x1 S8192x1 where
  offsetDims := []
  collapsedSliceDims := [1]
  operandBatchingDims := [0]
  startIndicesBatchingDims := [0]
  startIndexMap := [1]
  indexVectorDim := 2
  sliceSizes := ![1, 1]
  wf := gather_S8192x4096_S8192x1x1_S8192x1_n_1_0_0_1_2_11_wf

class Facts : Prop extends Facts₀ where

variable [Facts]
-- ==== Proof.Loss.lean ====
import Idealize.ShloMosaic.PureOps.Ideal
import Idealize.ShloMosaic.PureOps.Ideal.Laws
import Idealize.ShloMosaic.Lib.ValueIdx

/-! # The pairwise focal loss of one sample, and of the batch, on the extended reals

For a sample with scores `s j`, a candidate mask `mk j`, a head column `h` and a tail column `t`:
the positive score is `p = s t`; candidate `j` is a NEGATIVE when `mk j = 1` and `j` is neither the head nor the tail column;
with `x = s j - p`, `sp = max x 0 + log (1 + e^(-|x|))` (the softplus of `x`), `pt` the value `e^(-sp)` clipped into `[lo, hi]`,
the pair's loss is `(1 - pt)² · sp`; the sample's loss is the mean of its negatives' losses (0 when it has none), and the batch's is the
sum of the samples' losses over 8192.

Two spellings of the pair's loss meet here: `(1 · ((1 - pt) · (1 - pt))) · sp` and `((-1) · (1 - pt) ^ 2) · (-sp)`, the power being the
real power with exponent 2. They agree because `1 - pt` is a real number whatever `sp` is: `pt` lies between two real bounds. -/

noncomputable section

namespace Cert.Focal

open Idealize.ShloMosaic

/-! ## The constants -/

/-- The pattern of `1.0` denotes 1. -/
theorem one_f32 : Ideal.ofBits .f32 0x3F800000#32 = 1 := by
  simp [Ideal.ofBits, Ideal.ieee, -EReal.coe_mul]; norm_num

/-- The pattern of `-1.0` denotes -1. -/
theorem neg_one_f32 : Ideal.ofBits .f32 0xBF800000#32 = -1 := by
  simp [Ideal.ofBits, Ideal.ieee, -EReal.coe_mul]; norm_num

/-- The pattern of `2.0` denotes the real 2. -/
theorem two_f32 : Ideal.ofBits .f32 0x40000000#32 = ((2 : ℝ) : EReal) := by
  simp [Ideal.ofBits, Ideal.ieee, -EReal.coe_mul]; norm_num

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  simp only [h, if_false]
  split_ifs <;> exact ⟨_, rfl⟩

/-- The lower clipping bound `1e-7` is a real number, -/
theorem lo_real : ∃ r : ℝ, Ideal.ofBits .f32 0x33D6BF95#32 = (r : EReal) :=
  ieee_real 8 23 (0x33D6BF95#32 : BitVec 32) (by decide)
/-- and so is the upper one, `1 - 1e-7` rounded. -/
theorem hi_real : ∃ r : ℝ, Ideal.ofBits .f32 0x3F7FFFFE#32 = (r : EReal) :=
  ieee_real 8 23 (0x3F7FFFFE#32 : BitVec 32) (by decide)

/-! ## The pair's loss -/

/-- The softplus of `x`: `max x 0 + log (1 + e^(-|x|))`. -/
def splus (x : EReal) : EReal := max x 0 + Ideal.log1p (Ideal.exp (0 - max x (-x)))

/-- A probability clipped into `[1e-7, 1 - 1e-7]`. -/
def clip (y : EReal) : EReal := min (Ideal.ofBits .f32 0x3F7FFFFE#32) (max (Ideal.ofBits .f32 0x33D6BF95#32) y)

/-- The loss of the pair (positive, candidate) from the difference `x` of the candidate's score and the positive's. -/
def loss (x : EReal) : EReal :=
  (1 * ((1 - clip (Ideal.exp (0 - splus x))) * (1 - clip (Ideal.exp (0 - splus x))))) * splus x

/-- A clipped value is a real number, -/
theorem clip_real (y : EReal) : ∃ r : ℝ, clip y = (r : EReal) := by
  obtain ⟨l, hl⟩ := lo_real
  obtain ⟨h, hh⟩ := hi_real
  unfold clip
  rw [hl, hh]
  have h1 : min (h : EReal) (max (l : EReal) y) ≠ ⊤ := ne_top_of_le_ne_top (EReal.coe_ne_top h) (min_le_left _ _)
  have h2 : min (h : EReal) (max (l : EReal) y) ≠ ⊥ := by
    refine ne_bot_of_le_ne_bot (EReal.coe_ne_bot (min h l)) ?_
    exact le_min (EReal.coe_le_coe_iff.2 (min_le_left h l))
      (le_trans (EReal.coe_le_coe_iff.2 (min_le_right h l)) (le_max_left _ _))
  exact ⟨_, (EReal.coe_toReal h1 h2).symm⟩

/-- so one minus it is too. -/
theorem one_sub_clip_real (y : EReal) : ∃ a : ℝ, (1 : EReal) - clip y = (a : EReal) := by
  obtain ⟨r, hr⟩ := clip_real y
  exact ⟨1 - r, by rw [hr, EReal.coe_sub, EReal.coe_one]⟩

/-- A value compared unequal with itself: never. -/
theorem cmp_une_self (y : EReal) : Ideal.cmp .une y y = 0#1 := by
  simp [Ideal.cmp]

/-- The softplus as the reference spells it: the guarded branch is never taken, and subtracting 0 changes nothing. -/
theorem splus_ref (x : EReal) :
    Scalar.select (Ideal.cmp .une (x - 0) (x - 0)) (x + 0) (max x 0 + Ideal.log1p (Ideal.exp (-(max (x - 0) (-(x - 0))))))
      = splus x := by
  rw [cmp_une_self, ValueIdx.select_zero, sub_zero]
  unfold splus
  rw [zero_sub]

/-- The two spellings of the pair's loss. -/
theorem loss_ref (c s : EReal) (hc : ∃ a : ℝ, (1 : EReal) - c = (a : EReal)) :
    ((-1 : EReal) * Ideal.pow (1 - c) ((2 : ℝ) : EReal)) * (-s) = (1 * ((1 - c) * (1 - c))) * s := by
  obtain ⟨a, ha⟩ := hc
  rw [ha, Ideal.pow_coe_coe]
  have h2 : (Real.rpow a 2 : EReal) = (a : EReal) * (a : EReal) := by
    rw [← EReal.coe_mul]
    congr 1
    show a ^ (2 : ℝ) = a * a
    rw [Real.rpow_two]; ring
  rw [h2, one_mul, neg_one_mul, neg_mul_neg]

end Cert.Focal

end
-- ==== Proof.Spec.lean ====
import proofs.«420171_j23390391894538_3_alg».proof.Proof.Loss

/-! # The loss of a sample and of the batch, as sums over the candidates

`isNeg mk h t j`: candidate `j` counts as a negative — its mask word is 1 and its column is neither the head word `h` nor the tail word
`t` (columns compared as 32-bit words). `posScore s t`: the score at the tail column, written as the sum of the scores against the
indicator of that column. `rowLoss`: the mean of the negatives' pair losses, 0 for a sample without negatives. `total`: the batch's
mean over its 8192 samples. -/

noncomputable section

namespace Cert.Focal

open Idealize.ShloMosaic Idealize.ShloMosaic.ValueIdx

/-- Candidate `j` is a negative of the sample. -/
def isNeg (mk : Fin 4096 → BitVec 32) (h t : BitVec 32) (j : Fin 4096) : Prop :=
  mk j = 1#32 ∧ ¬ BitVec.ofNat 32 j.val = h ∧ ¬ BitVec.ofNat 32 j.val = t

instance (mk : Fin 4096 → BitVec 32) (h t : BitVec 32) : DecidablePred (isNeg mk h t) := fun j => by
  unfold isNeg; infer_instance

/-- The positive score: the score at the tail column. -/
def posScore (s : Fin 4096 → EReal) (t : BitVec 32) : EReal :=
  ∑ j : Fin 4096, if BitVec.ofNat 32 j.val = t then s j else 0

/-- How many negatives the sample has, as an extended real. -/
def negCount (mk : Fin 4096 → BitVec 32) (h t : BitVec 32) : EReal :=
  ∑ j : Fin 4096, if isNeg mk h t j then (1 : EReal) else 0

/-- The sum of the negatives' pair losses. -/
def negLoss (s : Fin 4096 → EReal) (mk : Fin 4096 → BitVec 32) (h t : BitVec 32) : EReal :=
  ∑ j : Fin 4096, if isNeg mk h t j then loss (s j - posScore s t) else 0

/-- The sample's loss: the mean over its negatives, 0 when it has none. -/
def rowLoss (s : Fin 4096 → EReal) (mk : Fin 4096 → BitVec 32) (h t : BitVec 32) : EReal :=
  Scalar.select (Ideal.cmp .ogt (negCount mk h t) 0) (Ideal.div (negLoss s mk h t) (max (negCount mk h t) 1)) 0

/-- The batch's loss: the samples' losses summed from 0 and divided by 8192. -/
def total (A0 : (⟨2, ![8192, 4096]⟩ : Shape).Idx → EReal) (A1 A2 : (⟨1, ![8192]⟩ : Shape).Idx → BitVec 32)
    (A3 : (⟨2, ![8192, 4096]⟩ : Shape).Idx → BitVec 32) : EReal :=
  Ideal.div (0 + ∑ b : Fin 8192, rowLoss (fun j => A0 (ix2 b j)) (fun j => A3 (ix2 b j)) (A1 (ix1 b)) (A2 (ix1 b)))
    (Ideal.ofBits .f32 0x46000000#32)

/-- A sum over the 4096 columns is the sum over the first 2048 plus the sum over the last 2048. -/
theorem sum_halves (f : Fin 4096 → EReal) :
    (∑ k : Fin 2048, f ⟨k.val, by omega⟩) + (∑ k : Fin 2048, f ⟨2048 + k.val, by omega⟩) = ∑ j : Fin 4096, f j := by
  have h := Fin.sum_univ_add (M := EReal) (a := 2048) (b := 2048) f
  rw [h]
  rfl

/-- With the tail word a column's number, the positive score is the score at that column. -/
theorem posScore_eq (s : Fin 4096 → EReal) (t : BitVec 32) (ht : t.toNat < 4096) :
    posScore s t = s ⟨t.toNat, ht⟩ := by
  unfold posScore
  have h : ∀ j : Fin 4096, (BitVec.ofNat 32 j.val = t) ↔ (j = ⟨t.toNat, ht⟩) := by
    intro j
    constructor
    · intro e
      apply Fin.ext
      have := congrArg BitVec.toNat e
      simp only [BitVec.toNat_ofNat] at this
      have hj := j.isLt
      show j.val = t.toNat
      omega
    · intro e
      subst e
      show BitVec.ofNat 32 t.toNat = t
      simp
  simp only [h]
  rw [Finset.sum_ite_eq' Finset.univ (⟨t.toNat, ht⟩ : Fin 4096) s]
  simp

end Cert.Focal

end
-- ==== Proof.LibScatterSet.lean ====
import Idealize.ShloMosaic.PureOps.ShapeOps
import Idealize.ShloMosaic.Lib.ValueIdx

/-! # A scatter that SETS, read at one cell

`Host.scatter d (fun _ b => b) x idx upd` — the scatter whose combining function returns the update's element — is the left fold,
over the update indices in row-major order, of "put the update's element at the cell its index lands on, drop it when it lands
outside". Read at one cell `i`:

* if no update index lands on `i`, the result there is the operand's element (`scatter_set_miss`);
* if some update index lands on `i` and every update index landing on `i` carries the same value `v`, the result there is `v`
  (`scatter_set_hit`); in particular when exactly one update index lands on `i` (`scatter_set_unique`).

Both are proved for the fold over ANY list of update indices (`foldl_step_miss`, `foldl_step_hit`) and then used at the list of all of
them.

"Lands on" is `ScatterDims.resultIdx?`. For the two dimension numbers of a scatter along axis 0 at one index word per update — scalar
updates into a flat array (`setDims`), row updates into a matrix (`setRowDims`) — it is worked out once: update `k` lands on the cell
whose axis-0 coordinate is the index word `idx[k, 0]` read as a SIGNED integer, when that is inside the array, and nowhere otherwise
(`setDims_resultIdx?_eq_some_iff`, `setRowDims_resultIdx?_eq_some_iff`). -/

namespace Idealize.ShloMosaic.ScatterSet

open Idealize.ShloMosaic Idealize.ShloMosaic.ValueIdx

/-! ## The fold over any list of update indices -/

section Fold
variable {ι κ α : Type}

/-- No step of the list changes cell `i`: the fold leaves the cell as it was. -/
theorem foldl_step_miss (step : (ι → α) → κ → ι → α) (i : ι) (L : List κ) (x : ι → α)
    (h : ∀ r, ∀ n ∈ L, step r n i = r i) : (L.foldl step x) i = x i := by
  induction L generalizing x with
  | nil => rfl
  | cons n L ih =>
    rw [List.foldl_cons, ih _ (fun r m hm => h r m (List.mem_cons_of_mem _ hm))]
    exact h x n (List.mem_cons_self ..)

/-- The cell holds `v` and every step of the list leaves it or writes `v`: the cell holds `v` after the fold. -/
theorem foldl_step_keep (step : (ι → α) → κ → ι → α) (i : ι) (v : α) (L : List κ) (x : ι → α) (hx : x i = v)
    (h : ∀ r, ∀ n ∈ L, step r n i = r i ∨ step r n i = v) : (L.foldl step x) i = v := by
  induction L generalizing x with
  | nil => exact hx
  | cons n L ih =>
    rw [List.foldl_cons]
    refine ih _ ?_ (fun r m hm => h r m (List.mem_cons_of_mem _ hm))
    rcases h x n (List.mem_cons_self ..) with e | e
    · rw [e]; exact hx
    · exact e

/-- Some step of the list writes `v` at cell `i`, and every step of the list leaves the cell or writes `v`: the cell holds `v`
    after the fold. -/
theorem foldl_step_hit (step : (ι → α) → κ → ι → α) (i : ι) (v : α) (L : List κ) (x : ι → α) (n₀ : κ) (hn₀ : n₀ ∈ L)
    (h₀ : ∀ r, step r n₀ i = v) (h : ∀ r, ∀ n ∈ L, step r n i = r i ∨ step r n i = v) : (L.foldl step x) i = v := by
  induction L generalizing x with
  | nil => cases hn₀
  | cons n L ih =>
    rw [List.foldl_cons]
    rcases List.mem_cons.1 hn₀ with rfl | hmem
    · exact foldl_step_keep step i v L _ (h₀ x) (fun r m hm => h r m (List.mem_cons_of_mem _ hm))
    · exact ih _ hmem (fun r m hm => h r m (List.mem_cons_of_mem _ hm))

end Fold

/-! ## The scatter read at a cell -/

section Scatter
variable {α : Type} {s si u : Shape} {w : Nat}

/-- No update index lands on cell `i`: the result there is the operand's element. -/
theorem scatter_set_miss (d : ScatterDims s si u) (x : s.Idx → α) (idx : IVec si w) (upd : u.Idx → α) (i : s.Idx)
    (h : ∀ k : u.Idx, d.resultIdx? k idx ≠ some i) :
    Host.scatter d (fun _ b => b) x idx upd i = x i := by
  unfold Host.scatter
  refine foldl_step_miss _ i _ x (fun r n _ => ?_)
  have hn := h (u.rowMajor.symm n)
  cases hρ : d.resultIdx? (u.rowMajor.symm n) idx with
  | none => rfl
  | some i₀ =>
    have hne : i ≠ i₀ := fun e => hn (by rw [hρ, e])
    show (if i = i₀ then _ else r i) = r i
    rw [if_neg hne]

/-- Update index `k₀` lands on cell `i`, and every update index landing on `i` carries `v`: the result there is `v`. -/
theorem scatter_set_hit (d : ScatterDims s si u) (x : s.Idx → α) (idx : IVec si w) (upd : u.Idx → α) (i : s.Idx) (v : α)
    (k₀ : u.Idx) (h₀ : d.resultIdx? k₀ idx = some i) (h : ∀ k : u.Idx, d.resultIdx? k idx = some i → upd k = v) :
    Host.scatter d (fun _ b => b) x idx upd i = v := by
  unfold Host.scatter
  refine foldl_step_hit _ i v _ x (u.rowMajor k₀) (List.mem_finRange _) (fun r => ?_) (fun r n _ => ?_)
  · have e : d.resultIdx? (u.rowMajor.symm (u.rowMajor k₀)) idx = some i := by rw [Equiv.symm_apply_apply]; exact h₀
    have hv := h (u.rowMajor.symm (u.rowMajor k₀)) e
    rw [e]
    show (if i = i then upd (u.rowMajor.symm (u.rowMajor k₀)) else r i) = v
    rw [if_pos rfl]; exact hv
  · have hn := h (u.rowMajor.symm n)
    cases hρ : d.resultIdx? (u.rowMajor.symm n) idx with
    | none => exact Or.inl rfl
    | some i₀ =>
      by_cases e : i = i₀
      · refine Or.inr ?_
        show (if i = i₀ then upd (u.rowMajor.symm n) else r i) = v
        rw [if_pos e]; exact hn (by rw [hρ, e])
      · refine Or.inl ?_
        show (if i = i₀ then upd (u.rowMajor.symm n) else r i) = r i
        rw [if_neg e]

/-- Exactly one update index, `k₀`, lands on cell `i`: the result there is the update's element at `k₀`. -/
theorem scatter_set_unique (d : ScatterDims s si u) (x : s.Idx → α) (idx : IVec si w) (upd : u.Idx → α) (i : s.Idx)
    (k₀ : u.Idx) (h₀ : d.resultIdx? k₀ idx = some i) (h : ∀ k : u.Idx, d.resultIdx? k idx = some i → k = k₀) :
    Host.scatter d (fun _ b => b) x idx upd i = upd k₀ :=
  scatter_set_hit d x idx upd i (upd k₀) k₀ h₀ (fun k hk => by rw [h k hk])

end Scatter

/-! ## Where an update lands: a scatter along axis 0 at one index word per update -/

section Dims
variable {N K D w : Nat}

/-- SCALAR updates into a flat array: operand `[N]`, scatter indices `[K, 1]` (one index word per update), updates `[K]`; the operand's
    one axis is inserted, no window axes. The conditions `wf` are decided on a program's literal shapes. -/
abbrev setDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- Update `k`'s window starts at the index word `idx[k, 0]`, read signed. -/
theorem setDims_start (wf : ScatterDims.WF ⟨1, ![N]⟩ ⟨2, ![K, 1]⟩ ⟨1, ![K]⟩ [] [0] [0] 1) (k : Fin K)
    (idx : IVec ⟨2, ![K, 1]⟩ w) : (setDims N K wf).start (ix1 k) idx 0 = (idx (ix2 k (0 : Fin 1))).toInt := by
  unfold ScatterDims.start
  rw [dif_pos (show (0 : Fin 1) ∈ (setDims N K wf).scatterDimsToOperandDims from List.mem_singleton.mpr rfl)]
  have hsi : (setDims N K wf).siIdx (ix1 k) ⟨List.idxOf (0 : Fin 1) (setDims N K wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- A scalar update has no window coordinate. -/
theorem setDims_window (wf : ScatterDims.WF ⟨1, ![N]⟩ ⟨2, ![K, 1]⟩ ⟨1, ![K]⟩ [] [0] [0] 1) (k : Fin K) :
    (setDims N K wf).window (ix1 k) 0 = 0 := by
  unfold ScatterDims.window
  rw [dif_neg (show ¬ (0 : Fin 1) ∈ (setDims N K wf).sKept from fun hmem => by
    simp [ScatterDims.sKept, Shape.kept] at hmem)]

/-- WHERE A SCALAR UPDATE LANDS: update `k` lands on cell `i` exactly when its index word `idx[k, 0]`, read signed, is `i`. (A word that
    is negative or at least `N` lands nowhere.) -/
theorem setDims_resultIdx?_eq_some_iff (wf : ScatterDims.WF ⟨1, ![N]⟩ ⟨2, ![K, 1]⟩ ⟨1, ![K]⟩ [] [0] [0] 1) (k : Fin K)
    (idx : IVec ⟨2, ![K, 1]⟩ w) (i : Fin N) :
    (setDims N K wf).resultIdx? (ix1 k) idx = some (ix1 i) ↔ (idx (ix2 k (0 : Fin 1))).toInt = (i.val : Int) := by
  have hs : ∀ a, (setDims N K wf).start (ix1 k) idx a + ((setDims N K wf).window (ix1 k) a : Int)
      = (idx (ix2 k (0 : Fin 1))).toInt := by
    intro a
    obtain rfl : a = 0 := Subsingleton.elim _ _
    rw [setDims_start, setDims_window]; simp
  unfold ScatterDims.resultIdx?
  split_ifs with h
  · rw [Option.some.injEq]
    constructor
    · intro e
      have hv : ((setDims N K wf).start (ix1 k) idx 0 + ((setDims N K wf).window (ix1 k) 0 : Int)).toNat = i.val :=
        congrArg Fin.val (congrFun e 0)
      have h0 := (h 0).1
      rw [hs 0] at hv h0
      omega
    · intro e
      funext a
      obtain rfl : a = 0 := Subsingleton.elim _ _
      refine Fin.ext ?_
      show ((setDims N K wf).start (ix1 k) idx 0 + ((setDims N K wf).window (ix1 k) 0 : Int)).toNat = i.val
      rw [hs 0, e]; simp
  · constructor
    · intro e; cases e
    · intro e
      exfalso; apply h
      intro a
      rw [hs a, e]
      obtain rfl : a = 0 := Subsingleton.elim _ _
      refine ⟨Int.natCast_nonneg _, ?_⟩
      show (i.val : Int) < (N : Int)
      exact_mod_cast i.isLt

/-- ROW updates into a matrix: operand `[N, D]`, scatter indices `[K, 1]` (one index word per update row), updates `[K, D]`; the
    operand's axis 0 is inserted, the updates' axis 1 is the window axis and goes to the operand's axis 1. -/
abbrev setRowDims (N K D : Nat) (wf : ScatterDims.WF ⟨2, ![N, D]⟩ ⟨2, ![K, 1]⟩ ⟨2, ![K, D]⟩ [1] [0] [0] 1) :
    ScatterDims ⟨2, ![N, D]⟩ ⟨2, ![K, 1]⟩ ⟨2, ![K, D]⟩ where
  updateWindowDims := [1]
  insertedWindowDims := [0]
  scatterDimsToOperandDims := [0]
  indexVectorDim := 1
  wf := wf

/-- On axis 0 update row `k`'s window starts at the index word `idx[k, 0]`, read signed. -/
theorem setRowDims_start0 (wf : ScatterDims.WF ⟨2, ![N, D]⟩ ⟨2, ![K, 1]⟩ ⟨2, ![K, D]⟩ [1] [0] [0] 1) (k : Fin K) (c : Fin D)
    (idx : IVec ⟨2, ![K, 1]⟩ w) : (setRowDims N K D wf).start (ix2 k c) idx 0 = (idx (ix2 k (0 : Fin 1))).toInt := by
  unfold ScatterDims.start
  rw [dif_pos (show (0 : Fin 2) ∈ (setRowDims N K D wf).scatterDimsToOperandDims from List.mem_singleton.mpr rfl)]
  have hsi : (setRowDims N K D wf).siIdx (ix2 k c) ⟨List.idxOf (0 : Fin 2) (setRowDims N K D wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On axis 1 the window starts at `0`: no index word names that axis. -/
theorem setRowDims_start1 (wf : ScatterDims.WF ⟨2, ![N, D]⟩ ⟨2, ![K, 1]⟩ ⟨2, ![K, D]⟩ [1] [0] [0] 1) (k : Fin K) (c : Fin D)
    (idx : IVec ⟨2, ![K, 1]⟩ w) : (setRowDims N K D wf).start (ix2 k c) idx 1 = 0 := by
  unfold ScatterDims.start
  rw [dif_neg (show ¬ (1 : Fin 2) ∈ (setRowDims N K D wf).scatterDimsToOperandDims from fun hmem => by
    simp at hmem)]

/-- No window coordinate on the inserted axis 0. -/
theorem setRowDims_window0 (wf : ScatterDims.WF ⟨2, ![N, D]⟩ ⟨2, ![K, 1]⟩ ⟨2, ![K, D]⟩ [1] [0] [0] 1) (k : Fin K) (c : Fin D) :
    (setRowDims N K D wf).window (ix2 k c) 0 = 0 := by
  unfold ScatterDims.window
  rw [dif_neg (show ¬ (0 : Fin 2) ∈ (setRowDims N K D wf).sKept from fun hmem => by
    simp [ScatterDims.sKept, Shape.kept] at hmem)]

/-- On axis 1 the window coordinate is the update's column. -/
theorem setRowDims_window1 (wf : ScatterDims.WF ⟨2, ![N, D]⟩ ⟨2, ![K, 1]⟩ ⟨2, ![K, D]⟩ [1] [0] [0] 1) (k : Fin K) (c : Fin D) :
    (setRowDims N K D wf).window (ix2 k c) 1 = c.val := by
  unfold ScatterDims.window
  rw [dif_pos (show (1 : Fin 2) ∈ (setRowDims N K D wf).sKept from by
    simp [ScatterDims.sKept, Shape.kept])]
  rfl

/-- WHERE A ROW UPDATE'S ELEMENT LANDS: element `(k, c)` of the updates lands on cell `(i, c')` exactly when the index word `idx[k, 0]`,
    read signed, is `i`, and the columns agree. (A word that is negative or at least `N` lands nowhere.) -/
theorem setRowDims_resultIdx?_eq_some_iff (wf : ScatterDims.WF ⟨2, ![N, D]⟩ ⟨2, ![K, 1]⟩ ⟨2, ![K, D]⟩ [1] [0] [0] 1)
    (k : Fin K) (c : Fin D) (idx : IVec ⟨2, ![K, 1]⟩ w) (i : Fin N) (c' : Fin D) :
    (setRowDims N K D wf).resultIdx? (ix2 k c) idx = some (ix2 i c') ↔
      ((idx (ix2 k (0 : Fin 1))).toInt = (i.val : Int) ∧ c = c') := by
  have hs0 : (setRowDims N K D wf).start (ix2 k c) idx 0 + ((setRowDims N K D wf).window (ix2 k c) 0 : Int)
      = (idx (ix2 k (0 : Fin 1))).toInt := by
    rw [setRowDims_start0, setRowDims_window0]; simp
  have hs1 : (setRowDims N K D wf).start (ix2 k c) idx 1 + ((setRowDims N K D wf).window (ix2 k c) 1 : Int)
      = (c.val : Int) := by
    rw [setRowDims_start1, setRowDims_window1]; simp
  unfold ScatterDims.resultIdx?
  split_ifs with h
  · rw [Option.some.injEq]
    constructor
    · intro e
      have hv0 : ((setRowDims N K D wf).start (ix2 k c) idx 0 + ((setRowDims N K D wf).window (ix2 k c) 0 : Int)).toNat
          = i.val := congrArg Fin.val (congrFun e 0)
      have hv1 : ((setRowDims N K D wf).start (ix2 k c) idx 1 + ((setRowDims N K D wf).window (ix2 k c) 1 : Int)).toNat
          = c'.val := congrArg Fin.val (congrFun e 1)
      have h0 := (h 0).1
      rw [hs0] at hv0 h0
      rw [hs1] at hv1
      refine ⟨by omega, Fin.ext (by simpa using hv1)⟩
    · rintro ⟨e, rfl⟩
      funext a
      refine Fin.ext ?_
      match a with
      | ⟨0, _⟩ =>
        show ((setRowDims N K D wf).start (ix2 k c) idx 0 + ((setRowDims N K D wf).window (ix2 k c) 0 : Int)).toNat = i.val
        rw [hs0, e]; simp
      | ⟨1, _⟩ =>
        show ((setRowDims N K D wf).start (ix2 k c) idx 1 + ((setRowDims N K D wf).window (ix2 k c) 1 : Int)).toNat = c.val
        rw [hs1]; simp
  · constructor
    · intro e; cases e
    · rintro ⟨e, -⟩
      exfalso; apply h
      intro a
      match a with
      | ⟨0, _⟩ =>
        show 0 ≤ (setRowDims N K D wf).start (ix2 k c) idx 0 + ((setRowDims N K D wf).window (ix2 k c) 0 : Int) ∧
          (setRowDims N K D wf).start (ix2 k c) idx 0 + ((setRowDims N K D wf).window (ix2 k c) 0 : Int) < (N : Int)
        rw [hs0, e]
        exact ⟨Int.natCast_nonneg _, by exact_mod_cast i.isLt⟩
      | ⟨1, _⟩ =>
        show 0 ≤ (setRowDims N K D wf).start (ix2 k c) idx 1 + ((setRowDims N K D wf).window (ix2 k c) 1 : Int) ∧
          (setRowDims N K D wf).start (ix2 k c) idx 1 + ((setRowDims N K D wf).window (ix2 k c) 1 : Int) < (D : Int)
        rw [hs1]
        exact ⟨Int.natCast_nonneg _, by exact_mod_cast c.isLt⟩

end Dims

end Idealize.ShloMosaic.ScatterSet
-- ==== Proof.LibScatterPairs.lean ====
import Idealize.ShloMosaic.PureOps.ShapeOps
import Idealize.ShloMosaic.Lib.ValueIdx

/-! # A scatter of scalars into a matrix, one (row, column) pair of index words per update

The operand has shape [R, C]; the scatter indices have shape [K, 2], the pair on the last axis (component 0 names the operand's
row, component 1 its column); the updates have shape [K]; both operand axes are inserted window axes and there is no window
axis. This is what `x.at[rows, cols].set(v)` (or `.add`, `.min`, …) prints as when `rows` and `cols` are vectors of length K.

Update `k` lands on the cell `(r, b)` exactly when its pair of index words, read as signed integers, is `(r, b)`
(`resultIdx?_eq_some_iff`); an update whose pair names no cell is dropped. -/

namespace Idealize.ShloMosaic.ScatterPairs

open Idealize.ShloMosaic Idealize.ShloMosaic.ValueIdx

variable {R C K w : Nat}

/-- Update `k` reads component `c` of its pair at `(k, c)` of the scatter indices. -/
theorem siIdx_eq (d : ScatterDims ⟨2, ![R, C]⟩ ⟨2, ![K, 2]⟩ ⟨1, ![K]⟩)
    (huw : d.updateWindowDims = []) (hsd : d.scatterDimsToOperandDims = [0, 1]) (hiv : d.indexVectorDim = 1)
    (k : Fin K) (c : Fin d.scatterDimsToOperandDims.length) (c' : Fin 2) (hc : c.val = c'.val) :
    d.siIdx (ix1 k) c = ix2 k c' := by
  obtain ⟨uw, iw, sd, iv, wf⟩ := d
  simp only at huw hsd hiv
  subst huw hsd hiv
  funext b
  match b with
  | ⟨0, _⟩ => rfl
  | ⟨1, _⟩ => exact Fin.ext hc

/-- The start on the operand's row axis is component 0 of the pair, read signed. -/
theorem start_eq0 (d : ScatterDims ⟨2, ![R, C]⟩ ⟨2, ![K, 2]⟩ ⟨1, ![K]⟩)
    (huw : d.updateWindowDims = []) (hsd : d.scatterDimsToOperandDims = [0, 1]) (hiv : d.indexVectorDim = 1)
    (idx : IVec ⟨2, ![K, 2]⟩ w) (k : Fin K) :
    d.start (ix1 k) idx 0 = (idx (ix2 k (0 : Fin 2))).toInt := by
  have ha : (0 : Fin 2) ∈ d.scatterDimsToOperandDims := by rw [hsd]; simp
  unfold ScatterDims.start
  rw [dif_pos ha, siIdx_eq d huw hsd hiv k _ 0 (by simp [hsd])]

/-- The start on the operand's column axis is component 1 of the pair, read signed. -/
theorem start_eq1 (d : ScatterDims ⟨2, ![R, C]⟩ ⟨2, ![K, 2]⟩ ⟨1, ![K]⟩)
    (huw : d.updateWindowDims = []) (hsd : d.scatterDimsToOperandDims = [0, 1]) (hiv : d.indexVectorDim = 1)
    (idx : IVec ⟨2, ![K, 2]⟩ w) (k : Fin K) :
    d.start (ix1 k) idx 1 = (idx (ix2 k (1 : Fin 2))).toInt := by
  have ha : (1 : Fin 2) ∈ d.scatterDimsToOperandDims := by rw [hsd]; simp
  unfold ScatterDims.start
  rw [dif_pos ha, siIdx_eq d huw hsd hiv k _ 1 (by simp [hsd])]

/-- There is no window: both operand axes are inserted. -/
theorem window_eq (d : ScatterDims ⟨2, ![R, C]⟩ ⟨2, ![K, 2]⟩ ⟨1, ![K]⟩)
    (hiw : d.insertedWindowDims = [0, 1]) (j : (⟨1, ![K]⟩ : Shape).Idx) (a : Fin 2) : d.window j a = 0 := by
  unfold ScatterDims.window
  rw [dif_neg]
  simp only [ScatterDims.sKept, Shape.kept, hiw]
  fin_cases a <;> simp

/-- Update `k` lands on the cell `(r, b)` exactly when the two words of its pair, read signed, are `r` and `b`. -/
theorem resultIdx?_eq_some_iff (d : ScatterDims ⟨2, ![R, C]⟩ ⟨2, ![K, 2]⟩ ⟨1, ![K]⟩)
    (huw : d.updateWindowDims = []) (hiw : d.insertedWindowDims = [0, 1])
    (hsd : d.scatterDimsToOperandDims = [0, 1]) (hiv : d.indexVectorDim = 1)
    (idx : IVec ⟨2, ![K, 2]⟩ w) (k : Fin K) (r : Fin R) (b : Fin C) :
    d.resultIdx? (ix1 k) idx = some (ix2 r b) ↔
      (idx (ix2 k (0 : Fin 2))).toInt = (r.val : Int) ∧ (idx (ix2 k (1 : Fin 2))).toInt = (b.val : Int) := by
  have s0 := start_eq0 d huw hsd hiv idx k
  have s1 := start_eq1 d huw hsd hiv idx k
  unfold ScatterDims.resultIdx?
  constructor
  · intro h
    split at h
    · rename_i hh
      have h0 := congrArg Fin.val (congrFun (Option.some.inj h) 0)
      have h1 := congrArg Fin.val (congrFun (Option.some.inj h) 1)
      have g0 := (hh 0).1
      have g1 := (hh 1).1
      simp only [window_eq d hiw, Nat.cast_zero, add_zero] at h0 h1 g0 g1
      rw [s0] at h0 g0
      rw [s1] at h1 g1
      have e0 : (idx (ix2 k (0 : Fin 2))).toInt.toNat = r.val := h0
      have e1 : (idx (ix2 k (1 : Fin 2))).toInt.toNat = b.val := h1
      constructor <;> omega
    · exact absurd h (by simp)
  · rintro ⟨h0, h1⟩
    have hR : ∀ h, ((⟨2, ![R, C]⟩ : Shape).size ⟨0, h⟩ : Int) = R := fun _ => rfl
    have hC : ∀ h, ((⟨2, ![R, C]⟩ : Shape).size ⟨1, h⟩ : Int) = C := fun _ => rfl
    have hall : ∀ a : Fin 2, 0 ≤ d.start (ix1 k) idx a + (d.window (ix1 k) a : Int) ∧
        d.start (ix1 k) idx a + (d.window (ix1 k) a : Int) < (⟨2, ![R, C]⟩ : Shape).size a := by
      intro a
      rw [window_eq d hiw]
      match a with
      | ⟨0, _⟩ =>
        rw [show d.start (ix1 k) idx ⟨0, by omega⟩ = _ from s0, h0, hR]
        have := r.isLt
        constructor <;> omega
      | ⟨1, _⟩ =>
        rw [show d.start (ix1 k) idx ⟨1, by omega⟩ = _ from s1, h1, hC]
        have := b.isLt
        constructor <;> omega
    rw [dif_pos hall]
    congr 1
    funext a
    apply Fin.ext
    simp only [window_eq d hiw, Nat.cast_zero, add_zero]
    match a with
    | ⟨0, _⟩ =>
      show (d.start (ix1 k) idx 0).toNat = r.val
      rw [s0, h0]; omega
    | ⟨1, _⟩ =>
      show (d.start (ix1 k) idx 1).toNat = b.val
      rw [s1, h1]; omega

end Idealize.ShloMosaic.ScatterPairs
-- ==== Proof.LibGatherRows.lean ====
import Idealize.ShloMosaic.PureOps.ShapeOps
import Idealize.ShloMosaic.Lib.ValueIdx

/-! A row-wise take: a gather whose operand [R, C] and start indices [R, P, 1] share their first axis as a batching axis,
    and whose one-component start index names the operand's column. Result element (r, p) is the operand's row r at
    the column idx[r, p, 0], read signed and clamped into [0, C - 1]. -/

namespace Cert.GatherRows

open Idealize.ShloMosaic Idealize.ShloMosaic.ValueIdx

variable {α : Type} {R C P w : Nat}

/-- THE ROW-WISE TAKE READ AT (r, p): the operand's row r at the column idx[r, p, 0], read signed and clamped into
    [0, C - 1]. The row axis is a batching axis (start 0, batching coordinate the result's row, no offset); the column
    axis is collapsed (the clamped start index, no batching coordinate, no offset). -/
theorem gather_rows_apply (hC : 0 < C) (d : GatherDims ⟨2, ![R, C]⟩ ⟨3, ![R, P, 1]⟩ ⟨2, ![R, P]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1])
    (x : (⟨2, ![R, C]⟩ : Shape).Idx → α) (idx : IVec ⟨3, ![R, P, 1]⟩ w) (r : Fin R) (p : Fin P) :
    Host.gather d x idx (ix2 r p)
      = x (ix2 r ⟨min (idx (ix3 r p (0 : Fin 1))).toInt.toNat (C - 1), by omega⟩) := by
  obtain ⟨od, cs, ob, sb, sim, iv, ss, wf⟩ := d
  simp only at h1 h2 h3 h4 h5 h6 h7
  subst h1 h2 h3 h4 h5 h6 h7
  unfold Host.gather
  congr 1
  funext a
  refine Fin.ext ?_
  have m00 : (0 : Fin 2) ∈ ([0] : List (Fin 2)) := List.mem_singleton.mpr rfl
  have m11 : (1 : Fin 2) ∈ ([1] : List (Fin 2)) := List.mem_singleton.mpr rfl
  have n10 : (1 : Fin 2) ∉ ([0] : List (Fin 2)) := by decide
  match a with
  | ⟨0, _⟩ =>
    show GatherDims.start _ (ix2 r p) idx 0 + GatherDims.batchCoord _ (ix2 r p) 0 + GatherDims.offCoord _ (ix2 r p) 0 = r.val
    rw [GatherDims.start_batching _ _ _ _ m00,
      GatherDims.offCoord_eq_zero _ _ _ (fun h => ((GatherDims.mem_sKept _ _).mp h).2 m00)]
    unfold GatherDims.batchCoord
    rw [dif_pos m00]
    simp only [Nat.zero_add, Nat.add_zero]
    rfl
  | ⟨1, _⟩ =>
    show GatherDims.start _ (ix2 r p) idx 1 + GatherDims.batchCoord _ (ix2 r p) 1 + GatherDims.offCoord _ (ix2 r p) 1 = _
    rw [GatherDims.batchCoord_eq_zero _ _ _ n10,
      GatherDims.offCoord_eq_zero _ _ _ (fun h => ((GatherDims.mem_sKept _ _).mp h).1 m11)]
    simp only [Nat.add_zero]
    unfold GatherDims.start
    rw [dif_pos m11]
    have hsi : ∀ c, GatherDims.siIdx (s := ⟨2, ![R, C]⟩) (si := ⟨3, ![R, P, 1]⟩) (t := ⟨2, ![R, P]⟩)
        ⟨[], [1], [0], [0], [1], 2, ![1, 1], wf⟩ (ix2 r p) c = ix3 r p (0 : Fin 1) := by
      intro c
      funext b; refine Fin.ext ?_
      match b with
      | ⟨0, _⟩ => rfl
      | ⟨1, _⟩ => rfl
      | ⟨2, _⟩ => have := c.isLt; simp only [List.length_singleton] at this; show c.val = 0; omega
    rw [hsi]
    rfl

/-- The row-wise take read at (r, p) when the start index idx[r, p, 0], read signed, is a column's number: the
    operand's entry at row r and that column. -/
theorem gather_rows_apply_of_lt (d : GatherDims ⟨2, ![R, C]⟩ ⟨3, ![R, P, 1]⟩ ⟨2, ![R, P]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1])
    (x : (⟨2, ![R, C]⟩ : Shape).Idx → α) (idx : IVec ⟨3, ![R, P, 1]⟩ w) (r : Fin R) (p : Fin P)
    (h0 : 0 ≤ (idx (ix3 r p (0 : Fin 1))).toInt) (hlt : (idx (ix3 r p (0 : Fin 1))).toInt < (C : Int)) :
    Host.gather d x idx (ix2 r p) = x (ix2 r ⟨(idx (ix3 r p (0 : Fin 1))).toInt.toNat, by omega⟩) := by
  have hC : 0 < C := by omega
  rw [gather_rows_apply hC d h1 h2 h3 h4 h5 h6 h7 x idx r p]
  congr 2
  apply Fin.ext
  show min (idx (ix3 r p (0 : Fin 1))).toInt.toNat (C - 1) = (idx (ix3 r p (0 : Fin 1))).toInt.toNat
  omega

end Cert.GatherRows
-- ==== Proof.RefValue.lean ====
import proofs.«420171_j23390391894538_3_alg».proof.Proof.RefRun
import proofs.«420171_j23390391894538_3_alg».proof.Proof.RefRead
import proofs.«420171_j23390391894538_3_alg».proof.Proof.Spec
import proofs.«420171_j23390391894538_3_alg».proof.Proof.LibScatterSet
import proofs.«420171_j23390391894538_3_alg».proof.Proof.LibScatterPairs
import proofs.«420171_j23390391894538_3_alg».proof.Proof.LibGatherRows
import Idealize.ShloMosaic.Lib.ValueIdx
import Idealize.ShloMosaic.Lib.Pipeline.Value
import Idealize.ShloMosaic.PureOps.Ideal.Laws
import Idealize.ShloMosaic.Lib.StableHlo.Predicate

/-! # The reference's result is the batch's loss

The reference masks out each sample's head and tail columns (two scatters of -1 into the candidate mask, one chosen column per
row), reads each sample's positive score (a row-wise take at the tail column), forms every pair's focal loss from the softplus of
the score difference, and averages each sample's losses over its negatives before summing the batch. Read one cell at a time: the
masked array is the candidate mask with the head and tail columns of each row overwritten, so "the cell is 1" is exactly "the
candidate is a negative"; the take is the score at the tail column; the per-cell arithmetic is the pair's loss; the row sums are
the negatives' count and loss; and the last division is the batch's mean. All of it needs only that every head word and every
tail word is a column's number. -/

noncomputable section

namespace Cert.ReferenceIdeal.RefValue

open Cert.ReferenceIdeal Cert.ReferenceIdeal.Gen Idealize.ShloMosaic Idealize.ShloMosaic.ValueIdx

/-! ## Words -/

/-- A word below 2³¹ is not negative: the guarded "add the extent" branch is never taken. -/
theorem select_slt_zero (w a : BitVec 32) (hw : w.toNat < 2 ^ 31) :
    Scalar.select (IntOp.cmpi .slt w 0#32) a w = w := by
  have h : IntOp.cmpi .slt w 0#32 = 0#1 := by
    apply eq_zero_of_ne_one
    intro e
    have := (StableHlo.Predicate.slt_iff_toNat hw (by decide)).1 e
    simp at this
  rw [h, select_zero]

/-- The word of a small number reads that number, signed. -/
theorem toInt_ofNat_lt (k : Nat) (hk : k < 8192) : (BitVec.ofNat 32 k).toInt = (k : Int) :=
  StableHlo.Predicate.toInt_ofNat_small k (by omega)

/-- A word below 4096 reads the same signed and unsigned. -/
theorem toInt_of_lt (w : BitVec 32) (hw : w.toNat < 4096) : w.toInt = (w.toNat : Int) :=
  StableHlo.Predicate.toInt_eq_toNat_of_lt (by omega)

/-- For a word below 4096, "the word of column j is this word" says the word's value is j. -/
theorem ofNat_eq_iff (w : BitVec 32) (hw : w.toNat < 4096) (j : Fin 4096) :
    BitVec.ofNat 32 j.val = w ↔ w.toNat = j.val := by
  constructor
  · intro e
    have := congrArg BitVec.toNat e
    simp only [BitVec.toNat_ofNat] at this
    have hj := j.isLt
    omega
  · intro e
    rw [← e]
    simp

/-! ## A scatter of one constant into one column per row -/

/-- Row k's update lands on column `(c k).toNat` of row k: after the scatter a cell holds the constant when its column is its
    row's chosen one, and the operand's element otherwise. -/
theorem scatter_cols (x : S8192x4096.Idx → BitVec 32) (idx : IVec S8192x2 32) (upd : S8192.Idx → BitVec 32)
    (v : BitVec 32) (c : Fin 8192 → BitVec 32) (hupd : ∀ k, upd k = v)
    (h0 : ∀ k : Fin 8192, (idx (ix2 k (0 : Fin 2))).toInt = (k.val : Int))
    (h1 : ∀ k : Fin 8192, (idx (ix2 k (1 : Fin 2))).toInt = ((c k).toNat : Int))
    (b : Fin 8192) (j : Fin 4096) :
    Host.scatter scatter_S8192x4096_S8192x2_S8192_n_01_01_1 (fun _ b => b) x idx upd (ix2 b j)
      = if (c b).toNat = j.val then v else x (ix2 b j) := by
  have hd := ScatterPairs.resultIdx?_eq_some_iff scatter_S8192x4096_S8192x2_S8192_n_01_01_1 rfl rfl rfl rfl idx
  split_ifs with hc
  · exact ScatterSet.scatter_set_hit _ x idx upd (ix2 b j) v (ix1 b)
      ((hd b b j).2 ⟨h0 b, by rw [h1 b, hc]⟩) (fun k _ => hupd k)
  · refine ScatterSet.scatter_set_miss _ x idx upd (ix2 b j) (fun k hk => ?_)
    obtain ⟨a, rfl⟩ : ∃ a : Fin 8192, k = ix1 a := ⟨k 0, eq_ix1 k⟩
    obtain ⟨e0, e1⟩ := (hd a b j).1 hk
    rw [h0] at e0
    rw [h1] at e1
    have hab : a = b := Fin.ext (by exact_mod_cast e0)
    rw [hab] at e1
    exact hc (by exact_mod_cast e1)

/-! ## Two columns joined side by side -/

/-- Column 0 of the joined array is the first operand's column. -/
theorem concat_left (p q : S8192x1.Idx → BitVec 32) (k : Fin 8192) :
    concatenate S8192x2 1 [⟨S8192x1, p⟩, ⟨S8192x1, q⟩] concatenates_S8192x1_S8192x1_S8192x2_d1 (ix2 k (0 : Fin 2))
      = p (ix2 k (0 : Fin 1)) :=
  concatenate_pair_apply_left (1 : Fin 2) p q concatenates_S8192x1_S8192x1_S8192x2_d1 (ix2 k (0 : Fin 2)) rfl
    (ix2 k (0 : Fin 1)) (fun b => match b with | ⟨0, _⟩ => rfl | ⟨1, _⟩ => rfl)

/-- Column 1 of the joined array is the second operand's column. -/
theorem concat_right (p q : S8192x1.Idx → BitVec 32) (k : Fin 8192) :
    concatenate S8192x2 1 [⟨S8192x1, p⟩, ⟨S8192x1, q⟩] concatenates_S8192x1_S8192x1_S8192x2_d1 (ix2 k (1 : Fin 2))
      = q (ix2 k (0 : Fin 1)) :=
  concatenate_pair_apply_right (1 : Fin 2) p q concatenates_S8192x1_S8192x1_S8192x2_d1 (ix2 k (1 : Fin 2)) rfl rfl
    (ix2 k (0 : Fin 1)) (fun b => match b with | ⟨0, _⟩ => fun _ => rfl | ⟨1, _⟩ => fun h => absurd rfl h) rfl

/-! ## A conjunction of ones -/

theorem foldl_andi_ones {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a]
    exact ih

/-- A reduction by "and", from 1, of an array of ones is 1 everywhere. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_foldl, hi]
  exact foldl_andi_ones x hx _

/-! ## The pair's loss, as the reference spells it -/

theorem loss_alg (x : EReal) :
    ((-1 : EReal) * Ideal.pow (1 - Cert.Focal.clip (Ideal.exp (-(Cert.Focal.splus x)))) ((2 : ℝ) : EReal))
      * (-(Cert.Focal.splus x)) = Cert.Focal.loss x := by
  unfold Cert.Focal.loss
  rw [zero_sub]
  exact Cert.Focal.loss_ref _ _ (Cert.Focal.one_sub_clip_real _)

/-- A one-bit word as a float: 1 when the bit is set, else 0. -/
theorem uitofp_bit (p : Prop) [Decidable p] (c : BitVec 1) (hc : c = 1#1 ↔ p) :
    FloatOps.uitofp (F := Ideal) .f32 c = if p then (1 : EReal) else 0 := by
  rcases BitVec.eq_zero_or_eq_one c with h | h
  · have hp : ¬ p := fun hp => by rw [hc.2 hp] at h; exact absurd h (by decide)
    rw [if_neg hp, h]
    show (((0#1 : BitVec 1).toNat : ℝ) : EReal) = 0
    simp
  · rw [if_pos (hc.1 h), h]
    show (((1#1 : BitVec 1).toNat : ℝ) : EReal) = 1
    simp

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

theorem sum_idx1 {n : Nat} (f : (⟨1, ![n]⟩ : Shape).Idx → EReal) : ∑ i, f i = ∑ a : Fin n, f (ix1 a) := by
  rw [← Equiv.sum_comp (idxEquiv1 (n := n)).symm f]
  rfl

open Cert.ReferenceIdeal.Read

/-- Row k's normalised row number is the word of k. -/
theorem v5_at (k : Fin 8192) : val_main_v5 (F := Ideal) (ix1 k) = BitVec.ofNat 32 k.val := by
  rw [val_main_v5_apply, val_main_v2_apply, val_main_v0_apply, val_main_v1_apply, val_main_c_apply]
  show Scalar.select (IntOp.cmpi .slt (BitVec.ofNat 32 k.val) 0#32) _ (BitVec.ofNat 32 k.val) = BitVec.ofNat 32 k.val
  exact select_slt_zero _ _ (by simp only [BitVec.toNat_ofNat]; have := k.isLt; omega)

theorem v20_at (k : Fin 8192) : val_main_v20 (F := Ideal) (ix1 k) = BitVec.ofNat 32 k.val := by
  rw [val_main_v20_apply, val_main_v17_apply, val_main_v0_apply, val_main_v16_apply, val_main_c_4_apply]
  show Scalar.select (IntOp.cmpi .slt (BitVec.ofNat 32 k.val) 0#32) _ (BitVec.ofNat 32 k.val) = BitVec.ofNat 32 k.val
  exact select_slt_zero _ _ (by simp only [BitVec.toNat_ofNat]; have := k.isLt; omega)

/-- A head word below 4096 is its own normalisation, -/
theorem v10_at (x1 : S8192.Idx → BitVec 32) (k : Fin 8192) (h : (x1 (ix1 k)).toNat < 4096) :
    val_main_v10 (F := Ideal) x1 (ix1 k) = x1 (ix1 k) := by
  rw [val_main_v10_apply, val_main_v7_apply, val_main_v6_apply, val_main_c_1_apply]
  exact select_slt_zero _ _ (by omega)

/-- and so is a tail word. -/
theorem v25_at (x2 : S8192.Idx → BitVec 32) (k : Fin 8192) (h : (x2 (ix1 k)).toNat < 4096) :
    val_main_v25 (F := Ideal) x2 (ix1 k) = x2 (ix1 k) := by
  rw [val_main_v25_apply, val_main_v22_apply, val_main_v21_apply, val_main_c_6_apply]
  exact select_slt_zero _ _ (by omega)

/-- The one column of row k of a [8192, 1] array comes from element k of the vector it was made from. -/
theorem col_idx (k : Fin 8192) : idx_main_v11 (ix2 k (0 : Fin 1)) = ix1 k := by
  funext a; match a with | ⟨0, _⟩ => rfl

/-- The first scatter's pairs: (row, head word). -/
theorem v13_at0 (x1 : S8192.Idx → BitVec 32) (k : Fin 8192) :
    val_main_v13 (F := Ideal) x1 (ix2 k (0 : Fin 2)) = BitVec.ofNat 32 k.val := by
  unfold val_main_v13
  rw [concat_left, val_main_v11_apply, col_idx, v5_at]

theorem v13_at1 (x1 : S8192.Idx → BitVec 32) (k : Fin 8192) (h : (x1 (ix1 k)).toNat < 4096) :
    val_main_v13 (F := Ideal) x1 (ix2 k (1 : Fin 2)) = x1 (ix1 k) := by
  unfold val_main_v13
  rw [concat_right, val_main_v12_apply]
  show val_main_v10 (F := Ideal) x1 (idx_main_v11 (ix2 k (0 : Fin 1))) = _
  rw [col_idx, v10_at x1 k h]

/-- The second scatter's pairs: (row, tail word). -/
theorem v28_at0 (x2 : S8192.Idx → BitVec 32) (k : Fin 8192) :
    val_main_v28 (F := Ideal) x2 (ix2 k (0 : Fin 2)) = BitVec.ofNat 32 k.val := by
  unfold val_main_v28
  rw [concat_left, val_main_v26_apply]
  show val_main_v20 (F := Ideal) (idx_main_v11 (ix2 k (0 : Fin 1))) = _
  rw [col_idx, v20_at]

theorem v28_at1 (x2 : S8192.Idx → BitVec 32) (k : Fin 8192) (h : (x2 (ix1 k)).toNat < 4096) :
    val_main_v28 (F := Ideal) x2 (ix2 k (1 : Fin 2)) = x2 (ix1 k) := by
  unfold val_main_v28
  rw [concat_right, val_main_v27_apply]
  show val_main_v25 (F := Ideal) x2 (idx_main_v11 (ix2 k (0 : Fin 1))) = _
  rw [col_idx, v25_at x2 k h]

/-! ## The candidate mask after both scatters -/

/-- After the head columns are set to -1: -/
theorem v15_at (x1 : S8192.Idx → BitVec 32) (x3 : S8192x4096.Idx → BitVec 32)
    (h1 : ∀ b : Fin 8192, (x1 (ix1 b)).toNat < 4096) (b : Fin 8192) (j : Fin 4096) :
    val_main_v15 (F := Ideal) x1 x3 (ix2 b j)
      = if (x1 (ix1 b)).toNat = j.val then 4294967295#32 else x3 (ix2 b j) := by
  unfold val_main_v15
  refine scatter_cols x3 _ _ 4294967295#32 (fun k => x1 (ix1 k)) (fun k => ?_) (fun k => ?_) (fun k => ?_) b j
  · rw [val_main_v14_apply, val_main_c_3_apply]
  · rw [v13_at0]; exact toInt_ofNat_lt _ k.isLt
  · rw [v13_at1 x1 k (h1 k)]; exact toInt_of_lt _ (h1 k)

/-- and after the tail columns are: -/
theorem v30_at (x1 x2 : S8192.Idx → BitVec 32) (x3 : S8192x4096.Idx → BitVec 32)
    (h1 : ∀ b : Fin 8192, (x1 (ix1 b)).toNat < 4096) (h2 : ∀ b : Fin 8192, (x2 (ix1 b)).toNat < 4096)
    (b : Fin 8192) (j : Fin 4096) :
    val_main_v30 (F := Ideal) x1 x2 x3 (ix2 b j)
      = if (x2 (ix1 b)).toNat = j.val then 4294967295#32
        else if (x1 (ix1 b)).toNat = j.val then 4294967295#32 else x3 (ix2 b j) := by
  unfold val_main_v30
  rw [← v15_at x1 x3 h1 b j]
  refine scatter_cols _ _ _ 4294967295#32 (fun k => x2 (ix1 k)) (fun k => ?_) (fun k => ?_) (fun k => ?_) b j
  · rw [val_main_v29_apply, val_main_c_8_apply]
  · rw [v28_at0]; exact toInt_ofNat_lt _ k.isLt
  · rw [v28_at1 x2 k (h2 k)]; exact toInt_of_lt _ (h2 k)

/-- The negatives' bit: set exactly at the sample's negatives. -/
theorem v32_at (x1 x2 : S8192.Idx → BitVec 32) (x3 : S8192x4096.Idx → BitVec 32)
    (h1 : ∀ b : Fin 8192, (x1 (ix1 b)).toNat < 4096) (h2 : ∀ b : Fin 8192, (x2 (ix1 b)).toNat < 4096)
    (b : Fin 8192) (j : Fin 4096) :
    val_main_v32 (F := Ideal) x1 x2 x3 (ix2 b j) = 1#1
      ↔ Cert.Focal.isNeg (fun j => x3 (ix2 b j)) (x1 (ix1 b)) (x2 (ix1 b)) j := by
  rw [val_main_v32_apply, val_main_v31_apply, val_main_c_9_apply, v30_at x1 x2 x3 h1 h2 b j,
    StableHlo.Predicate.cmpi_eq_iff]
  unfold Cert.Focal.isNeg
  rw [ofNat_eq_iff _ (h1 b) j, ofNat_eq_iff _ (h2 b) j]
  by_cases e2 : (x2 (ix1 b)).toNat = j.val
  · rw [if_pos e2]
    constructor
    · intro h; exact absurd h (by decide)
    · intro h; exact absurd e2 h.2.2
  · rw [if_neg e2]
    by_cases e1 : (x1 (ix1 b)).toNat = j.val
    · rw [if_pos e1]
      constructor
      · intro h; exact absurd h (by decide)
      · intro h; exact absurd e1 h.2.1
    · rw [if_neg e1]
      exact ⟨fun h => ⟨h, e1, e2⟩, fun h => h.1⟩

/-! ## The positive score: the row-wise take at the tail column -/

/-- The start index of row b is the tail word of b. -/
theorem call0_v5_at (x2 : S8192.Idx → BitVec 32) (b : Fin 8192) (h : (x2 (ix1 b)).toNat < 4096) :
    val_main_call0_v5 (F := Ideal) x2 (ix3 b (0 : Fin 1) (0 : Fin 1)) = x2 (ix1 b) := by
  have hi : idx_main_call0_v5 (ix3 b (0 : Fin 1) (0 : Fin 1)) = ix2 b (0 : Fin 1) := by
    funext a
    match a with
    | ⟨0, _⟩ => exact Fin.ext (by show ((b.val * 1 + 0) * 1 + 0) / 1 = b.val; omega)
    | ⟨1, _⟩ => rfl
  rw [val_main_call0_v5_apply, hi, val_main_call0_v4_apply, val_main_call0_v1_apply, val_main_v33_apply,
    val_main_call0_v0_apply, val_main_call0_c_apply]
  show Scalar.select (IntOp.cmpi .slt (x2 (idx_main_v11 (ix2 b (0 : Fin 1)))) 0#32) _ (x2 (idx_main_v11 (ix2 b (0 : Fin 1)))) = _
  rw [col_idx]
  exact select_slt_zero _ _ (by omega)

/-- Every start index is inside the row: the bounds mask is all ones. -/
theorem call0_v11_at (x2 : S8192.Idx → BitVec 32) (h2 : ∀ b : Fin 8192, (x2 (ix1 b)).toNat < 4096) (i : S8192x1x1.Idx) :
    val_main_call0_v11 (F := Ideal) x2 i = 1#1 := by
  obtain ⟨b, p, q, rfl⟩ : ∃ (b : Fin 8192) (p q : Fin 1), i = ix3 b p q := ⟨i 0, i 1, i 2, eq_ix3 i⟩
  obtain rfl : p = 0 := Subsingleton.elim _ _
  obtain rfl : q = 0 := Subsingleton.elim _ _
  have hb := h2 b
  rw [val_main_call0_v11_apply, val_main_call0_v7_apply, val_main_call0_v10_apply, call0_v5_at x2 b hb,
    val_main_call0_v6_apply, val_main_call0_c_2_apply, val_main_call0_v9_apply, val_main_call0_v8_apply,
    val_main_call0_c_1_apply]
  have e1 : IntOp.cmpi .sge (x2 (ix1 b)) 0#32 = 1#1 :=
    (StableHlo.Predicate.sge_iff_toNat (by omega) (by decide)).2 (Nat.zero_le _)
  have e2 : IntOp.cmpi .sle (x2 (ix1 b)) 4095#32 = 1#1 :=
    (StableHlo.Predicate.sle_iff_toNat (by omega) (by decide)).2 (by show (x2 (ix1 b)).toNat ≤ 4095; omega)
  rw [e1, e2]
  rfl

/-- The take of row b: the score at the tail column, which is the sample's positive score. -/
theorem v34_at (x0 : S8192x4096.Idx → EReal) (x2 : S8192.Idx → BitVec 32)
    (h2 : ∀ b : Fin 8192, (x2 (ix1 b)).toNat < 4096) (b : Fin 8192) :
    val_main_v34 (F := Ideal) x0 x2 (ix2 b (0 : Fin 1))
      = Cert.Focal.posScore (fun j => x0 (ix2 b j)) (x2 (ix1 b)) := by
  have hb := h2 b
  have hm : val_main_call0_v12 (F := Ideal) x2 (ix2 b (0 : Fin 1)) = 1#1 := by
    unfold val_main_call0_v12
    exact reduce_andi_ones _ _ _ _ _ (call0_v11_at x2 h2) (fun i => val_main_call0_c_3_apply i)
  have hi := toInt_of_lt _ hb
  have hg : val_main_call0_v13 (F := Ideal) x0 x2 (ix2 b (0 : Fin 1)) = x0 (ix2 b ⟨(x2 (ix1 b)).toNat, hb⟩) := by
    unfold val_main_call0_v13
    rw [Cert.GatherRows.gather_rows_apply_of_lt gather_S8192x4096_S8192x1x1_S8192x1_n_1_0_0_1_2_11 rfl rfl rfl rfl rfl rfl rfl
      x0 (val_main_call0_v5 (F := Ideal) x2) b (0 : Fin 1)
      (by rw [call0_v5_at x2 b hb, hi]; exact Int.natCast_nonneg _)
      (by rw [call0_v5_at x2 b hb, hi]; exact_mod_cast hb)]
    congr 2
    apply Fin.ext
    show (val_main_call0_v5 (F := Ideal) x2 (ix3 b (0 : Fin 1) (0 : Fin 1))).toInt.toNat = (x2 (ix1 b)).toNat
    rw [call0_v5_at x2 b hb, hi]
    exact Int.toNat_natCast _
  rw [val_main_v34_apply, hm, select_one, hg, Cert.Focal.posScore_eq _ _ hb]

/-! ## The pair's loss at a cell -/

/-- Cell (b, j) of the broadcast positive score is row b's. -/
theorem row_idx (b : Fin 8192) (j : Fin 4096) : idx_main_v35 (ix2 b j) = ix2 b (0 : Fin 1) := by
  funext a; match a with | ⟨0, _⟩ => rfl | ⟨1, _⟩ => rfl

/-- The difference of the candidate's score and the positive's. -/
theorem v36_at (x0 : S8192x4096.Idx → EReal) (x2 : S8192.Idx → BitVec 32)
    (h2 : ∀ b : Fin 8192, (x2 (ix1 b)).toNat < 4096) (b : Fin 8192) (j : Fin 4096) :
    val_main_v36 (F := Ideal) x0 x2 (ix2 b j)
      = x0 (ix2 b j) - Cert.Focal.posScore (fun j => x0 (ix2 b j)) (x2 (ix1 b)) := by
  rw [val_main_v36_apply, val_main_v35_apply, row_idx, v34_at x0 x2 h2 b]
  rfl

/-- The softplus of the difference. -/
theorem v37_at (x0 : S8192x4096.Idx → EReal) (x2 : S8192.Idx → BitVec 32)
    (h2 : ∀ b : Fin 8192, (x2 (ix1 b)).toNat < 4096) (b : Fin 8192) (j : Fin 4096) :
    val_main_v37 (F := Ideal) x0 x2 (ix2 b j)
      = Cert.Focal.splus (x0 (ix2 b j) - Cert.Focal.posScore (fun j => x0 (ix2 b j)) (x2 (ix1 b))) := by
  rw [val_main_v37_apply, val_main_call1_v4_apply, val_main_call1_v3_apply, val_main_call1_v2_apply,
    val_main_call1_cst_apply, val_main_call1_v6_apply, val_main_call1_v5_apply, val_main_call1_cst_apply,
    val_main_call1_v11_apply, val_main_call1_v1_apply, val_main_call1_v0_apply, val_main_call1_cst_apply,
    val_main_call1_v10_apply, val_main_call1_v9_apply, val_main_call1_v8_apply, val_main_call1_v7_apply,
    val_main_call1_v3_apply, val_main_call1_v2_apply, val_main_call1_cst_apply, v36_at x0 x2 h2 b j]
  simp only [Ideal.ofBits_def, Ideal.ofBits_zero_f32, Ideal.subf_def, Ideal.addf_def, Ideal.maximumf_def,
    Ideal.hostUnary_log1p_def, Ideal.hostUnary_exp_def, Ideal.hostNegf_def, Ideal.hostAbsf_def, Ideal.negf_def,
    Ideal.cmpf_def, Ideal.absf_def]
  exact Cert.Focal.splus_ref _

/-- The pair's loss. -/
theorem v47_at (x0 : S8192x4096.Idx → EReal) (x2 : S8192.Idx → BitVec 32)
    (h2 : ∀ b : Fin 8192, (x2 (ix1 b)).toNat < 4096) (b : Fin 8192) (j : Fin 4096) :
    val_main_v47 (F := Ideal) x0 x2 (ix2 b j)
      = Cert.Focal.loss (x0 (ix2 b j) - Cert.Focal.posScore (fun j => x0 (ix2 b j)) (x2 (ix1 b))) := by
  rw [val_main_v47_apply, val_main_v46_apply, val_main_v45_apply, val_main_cst_13_apply, val_main_v44_apply,
    val_main_v43_apply, val_main_cst_12_apply, val_main_v42_apply, val_main_v41_apply, val_main_cst_11_apply,
    val_main_v40_apply, val_main_call2_v4_apply, val_main_call2_v3_apply, val_main_cst_10_apply,
    val_main_call2_v2_apply, val_main_call2_v1_apply, val_main_call2_v0_apply, val_main_cst_apply,
    val_main_v39_apply, val_main_v38_apply, v37_at x0 x2 h2 b j]
  simp only [Ideal.ofBits_def, Ideal.mulf_def, Ideal.subf_def, Ideal.hostPowf_def, Ideal.minimumf_def,
    Ideal.maximumf_def, Ideal.hostUnary_exp_def, Ideal.hostNegf_def, Ideal.negf_def, Cert.Focal.one_f32,
    Cert.Focal.neg_one_f32, Cert.Focal.two_f32]
  exact loss_alg _

/-! ## The sample's loss -/

/-- Column k of row b. -/
theorem sum_idx (b : Fin 8192) (k : Fin 4096) : idx_main_v49 (ix1 b) k = ix2 b k := by
  funext a; match a with | ⟨0, _⟩ => rfl | ⟨1, _⟩ => rfl

/-- The negatives' bit as a float. -/
theorem v48_at (x1 x2 : S8192.Idx → BitVec 32) (x3 : S8192x4096.Idx → BitVec 32)
    (h1 : ∀ b : Fin 8192, (x1 (ix1 b)).toNat < 4096) (h2 : ∀ b : Fin 8192, (x2 (ix1 b)).toNat < 4096)
    (b : Fin 8192) (j : Fin 4096) :
    val_main_v48 (F := Ideal) x1 x2 x3 (ix2 b j)
      = if Cert.Focal.isNeg (fun j => x3 (ix2 b j)) (x1 (ix1 b)) (x2 (ix1 b)) j then (1 : EReal) else 0 := by
  rw [val_main_v48_apply]
  exact uitofp_bit _ _ (v32_at x1 x2 x3 h1 h2 b j)

/-- The number of negatives. -/
theorem v49_at (x1 x2 : S8192.Idx → BitVec 32) (x3 : S8192x4096.Idx → BitVec 32)
    (h1 : ∀ b : Fin 8192, (x1 (ix1 b)).toNat < 4096) (h2 : ∀ b : Fin 8192, (x2 (ix1 b)).toNat < 4096)
    (b : Fin 8192) :
    val_main_v49 (F := Ideal) x1 x2 x3 (ix1 b)
      = Cert.Focal.negCount (fun j => x3 (ix2 b j)) (x1 (ix1 b)) (x2 (ix1 b)) := by
  rw [val_main_v49_apply, val_main_cst_14_apply, Ideal.ofBits_def, Ideal.ofBits_zero_f32, zero_add]
  unfold Cert.Focal.negCount
  refine Finset.sum_congr rfl (fun k _ => ?_)
  rw [sum_idx, v48_at x1 x2 x3 h1 h2 b k]

/-- The sum of the negatives' losses. -/
theorem v53_at (x0 : S8192x4096.Idx → EReal) (x1 x2 : S8192.Idx → BitVec 32) (x3 : S8192x4096.Idx → BitVec 32)
    (h1 : ∀ b : Fin 8192, (x1 (ix1 b)).toNat < 4096) (h2 : ∀ b : Fin 8192, (x2 (ix1 b)).toNat < 4096)
    (b : Fin 8192) :
    val_main_v53 (F := Ideal) x0 x1 x2 x3 (ix1 b)
      = Cert.Focal.negLoss (fun j => x0 (ix2 b j)) (fun j => x3 (ix2 b j)) (x1 (ix1 b)) (x2 (ix1 b)) := by
  rw [val_main_v53_apply, val_main_cst_16_apply, Ideal.ofBits_def, Ideal.ofBits_zero_f32, zero_add]
  unfold Cert.Focal.negLoss
  refine Finset.sum_congr rfl (fun k _ => ?_)
  show val_main_v52 (F := Ideal) x0 x1 x2 x3 (idx_main_v49 (ix1 b) k) = _
  rw [sum_idx, val_main_v52_apply, v47_at x0 x2 h2 b k, v48_at x1 x2 x3 h1 h2 b k, Ideal.mulf_def]
  split_ifs
  · rw [mul_one]
  · rw [mul_zero]

/-- The sample's loss: the mean over its negatives, 0 when it has none. -/
theorem v57_at (x0 : S8192x4096.Idx → EReal) (x1 x2 : S8192.Idx → BitVec 32) (x3 : S8192x4096.Idx → BitVec 32)
    (h1 : ∀ b : Fin 8192, (x1 (ix1 b)).toNat < 4096) (h2 : ∀ b : Fin 8192, (x2 (ix1 b)).toNat < 4096)
    (b : Fin 8192) :
    val_main_v57 (F := Ideal) x0 x1 x2 x3 (ix1 b)
      = Cert.Focal.rowLoss (fun j => x0 (ix2 b j)) (fun j => x3 (ix2 b j)) (x1 (ix1 b)) (x2 (ix1 b)) := by
  rw [val_main_v57_apply, val_main_v51_apply, val_main_v50_apply, val_main_cst_15_apply, val_main_v56_apply,
    val_main_v55_apply, val_main_v54_apply, val_main_cst_17_apply, val_main_call3_v1_apply, val_main_call3_v0_apply,
    val_main_cst_18_apply, v49_at x1 x2 x3 h1 h2 b, v53_at x0 x1 x2 x3 h1 h2 b]
  simp only [Ideal.ofBits_def, Ideal.ofBits_zero_f32, Cert.Focal.one_f32, Ideal.cmpf_def, Ideal.hostDivf_def,
    Ideal.maximumf_def]
  rfl

/-! ## The batch's loss -/

/-- With every head word and every tail word a column's number, the reference's result is the batch's loss. -/
theorem val_eq_total (x0 : S8192x4096.Idx → EReal) (x1 x2 : S8192.Idx → BitVec 32) (x3 : S8192x4096.Idx → BitVec 32)
    (h1 : ∀ b : Fin 8192, (x1 (ix1 b)).toNat < 4096) (h2 : ∀ b : Fin 8192, (x2 (ix1 b)).toNat < 4096) :
    Cert.ReferenceIdeal.Read.val_main_v59 (F := Ideal) x0 x1 x2 x3 = fun _ => Cert.Focal.total x0 x1 x2 x3 := by
  funext i
  rw [val_main_v59_apply, val_main_v58_apply, val_main_cst_19_apply, val_main_cst_20_apply, sum_idx1]
  simp only [Ideal.ofBits_def, Ideal.ofBits_zero_f32, Ideal.hostDivf_def]
  unfold Cert.Focal.total
  rw [Finset.sum_congr rfl (fun b _ => v57_at x0 x1 x2 x3 h1 h2 b)]

end Cert.ReferenceIdeal.RefValue

end
-- ==== Proof.Ops.lean ====
import Idealize.ShloMosaic.PureOps
import Idealize.ShloMosaic.PureOps.Ideal.Laws
import Idealize.ShloMosaic.Lib.ValueIdx
import Idealize.ShloMosaic.Lib.Pipeline.Value

/-! # A [256, 4096] block read half by half, one row at a time

The body works on a block of 256 rows in two halves of 2048 columns. Read at row `r`:
a sum along the columns of a half, kept as a [256, 1] column, is the sum over the 2048 columns of that row; a [256, 1] column spread over a
half reads the column's entry of the row; the column numbers of a half are the lane number, offset by 2048 in the second half; a half
loaded from the block reads the block at the same row and the half's columns. -/

noncomputable section

namespace Cert.Focal.Ops

open Idealize.ShloMosaic Idealize.ShloMosaic.ValueIdx

/-- A half: 256 rows, 2048 columns. -/
abbrev SH : Shape := ⟨2, ![256, 2048]⟩
/-- A column: one entry per row. -/
abbrev SC : Shape := ⟨2, ![256, 1]⟩
/-- The rows. -/
abbrev SR : Shape := ⟨1, ![256]⟩
/-- The whole block. -/
abbrev SW : Shape := ⟨2, ![256, 4096]⟩

/-- The sum along a half's columns, kept as a column, at row `r`: the sum of that row's 2048 entries. -/
theorem rowsum_apply (v : FVec Ideal SH .f32) (h : SH.Reduces [1] SR) (hφ : FKind.Formats .f32)
    (hacc : (0x00000000#32 : BitVec 32) = 0x00000000#32) (hc : SR.ShapeCasts SC) (r : Fin 256) :
    shapeCast SC (multiReduction .add [1] SR v 0x00000000#32 h hφ hacc) hc (ix2 r (0 : Fin 1)) = ∑ k : Fin 2048, v (ix2 r k) := by
  refine (shapeCast_apply _ hc (ix2 r (0 : Fin 1)) (ix1 r) ?_).trans ?_
  · rw [Shape.rowMajor_val_one, Shape.rowMajor_val_two]
    show r.val = r.val * 1 + 0
    omega
  · refine (Ideal.multiReduction_add_single v 0x00000000#32 h hφ hacc (ix1 r)).trans ?_
    refine Finset.sum_congr rfl fun k _ => congrArg v ?_
    funext a
    match a with
    | ⟨0, _⟩ => rfl
    | ⟨1, _⟩ => rfl

/-- A column spread over a half reads, at `(r, k)`, the column's entry of row `r`. -/
theorem spread_apply {α : Type} (c : SC.Idx → α) (h : SC.Broadcasts SH) (r : Fin 256) (k : Fin 2048) :
    broadcastTo SH c h (ix2 r k) = c (ix2 r (0 : Fin 1)) := by
  refine broadcastTo_apply c h (ix2 r k) (ix2 r (0 : Fin 1)) fun a => ?_
  match a with
  | ⟨0, _⟩ => rfl
  | ⟨1, _⟩ => rfl

/-- The column numbers of the first half: the lane number. -/
theorem cols0_apply (h : SH.Iotas .tc 32 [1]) (r : Fin 256) (k : Fin 2048) :
    addi (broadcast SH (0#32 : BitVec 32)) (iota .tc SH 32 [1] h) (ix2 r k) = BitVec.ofNat 32 k.val := by
  show IntOp.addi (0#32) (iota .tc SH 32 [1] h (ix2 r k)) = _
  rw [iota_single_apply]
  show (0#32 : BitVec 32) + BitVec.ofNat 32 k.val = _
  simp

/-- The column numbers of the second half: 2048 plus the lane number. -/
theorem cols1_apply (h : SH.Iotas .tc 32 [1]) (r : Fin 256) (k : Fin 2048) :
    addi (broadcast SH (2048#32 : BitVec 32)) (iota .tc SH 32 [1] h) (ix2 r k) = BitVec.ofNat 32 (2048 + k.val) := by
  show IntOp.addi (2048#32) (iota .tc SH 32 [1] h (ix2 r k)) = _
  rw [iota_single_apply]
  show (2048#32 : BitVec 32) + BitVec.ofNat 32 k.val = _
  rw [BitVec.ofNat_add]

/-- The first half loaded from the block: the same row, the same column. -/
theorem half0_apply {Val : EltTy → Type} {e : EltTy} (X : SW.Idx → Val e) (inb : ∀ a, (![0, 0] : Fin 2 → Nat) a + SH.size a ≤ SW.size a)
    (r : Fin 256) (k : Fin 2048) :
    View.ld (Val := Val) (e' := e) X (Rect.unit (s := SW) ![0, 0] SH.size inb) (ix2 r k) = X (ix2 r ⟨k.val, by omega⟩) := by
  refine congrArg X (funext fun a => Fin.ext ?_)
  match a with
  | ⟨0, _⟩ => show 0 + 1 * r.val = r.val; omega
  | ⟨1, _⟩ => show 0 + 1 * k.val = k.val; omega

/-- The second half loaded from the block: the same row, the column 2048 further. -/
theorem half1_apply {Val : EltTy → Type} {e : EltTy} (X : SW.Idx → Val e) (inb : ∀ a, (![0, 2048] : Fin 2 → Nat) a + SH.size a ≤ SW.size a)
    (r : Fin 256) (k : Fin 2048) :
    View.ld (Val := Val) (e' := e) X (Rect.unit (s := SW) ![0, 2048] SH.size inb) (ix2 r k) = X (ix2 r ⟨2048 + k.val, by omega⟩) := by
  refine congrArg X (funext fun a => Fin.ext ?_)
  match a with
  | ⟨0, _⟩ => show 0 + 1 * r.val = r.val; omega
  | ⟨1, _⟩ => show 2048 + 1 * k.val = 2048 + k.val; omega

end Cert.Focal.Ops

end
-- ==== Proof.KernelRow.lean ====
import proofs.«420171_j23390391894538_3_alg».proof.Proof.Gen.KernelIdeal.Frame
import proofs.«420171_j23390391894538_3_alg».proof.Proof.Spec
import proofs.«420171_j23390391894538_3_alg».proof.Proof.Ops
import Idealize.ShloMosaic.Lib.StableHlo.Predicate

/-! # The body's output block, one row at a time

The body leaves in the output block, at row `r`, the loss of the sample whose scores, mask words, head word and tail word are row `r`
of the four input blocks: the positive score, the count of negatives and the sum of their losses are each accumulated over the two halves
of the row, and a sum over 4096 columns is the sum of its two halves. -/

noncomputable section

namespace Cert.KernelIdeal.FocalRow

open Cert.KernelIdeal Cert.KernelIdeal.Gen Idealize.ShloMosaic Idealize.ShloMosaic.ValueIdx Cert.Focal Cert.Focal.Ops

/-! ## The negative's bit -/

/-- The bit the body computes for a candidate: its mask word is 1, its column is not the head's, its column is not the tail's. -/
def negBit (mkw hd tl col : BitVec 32) : BitVec 1 :=
  IntOp.andi (IntOp.andi (IntOp.cmpi .eq mkw 1#32) (IntOp.xori (IntOp.cmpi .eq col hd) 1#1)) (IntOp.xori (IntOp.cmpi .eq col tl) 1#1)

theorem negBit_eq_one_iff (mkw hd tl col : BitVec 32) :
    negBit mkw hd tl col = 1#1 ↔ (mkw = 1#32 ∧ ¬ col = hd ∧ ¬ col = tl) := by
  unfold negBit IntOp.andi IntOp.xori IntOp.cmpi
  cases e1 : (mkw == 1#32) <;> cases e2 : (col == hd) <;> cases e3 : (col == tl) <;> simp_all

/-- A select on the negative's bit is the choice on "is a negative". -/
theorem select_negBit {α : Type} (mk : Fin 4096 → BitVec 32) (hd tl : BitVec 32) (j : Fin 4096) (a b : α) :
    Scalar.select (negBit (mk j) hd tl (BitVec.ofNat 32 j.val)) a b = if isNeg mk hd tl j then a else b := by
  unfold Scalar.select isNeg
  exact if_congr (negBit_eq_one_iff _ _ _ _) rfl rfl

/-! ## The pair's loss on a half -/

/-- The body's arithmetic from the score differences of a half to the pairs' losses. -/
def lossVec (x : FVec Ideal S256x2048 .f32) : FVec Ideal S256x2048 .f32 :=
  have v40 : FVec Ideal S256x2048 .f32 := absf x
  have v42 : FVec Ideal S256x2048 .f32 := subf (broadcast S256x2048 (Scalar.ofBits .f32 0x00000000#32)) v40
  have v43 : FVec Ideal S256x2048 .f32 := exp v42
  have v45 : FVec Ideal S256x2048 .f32 := maximumf x (broadcast S256x2048 (Scalar.ofBits .f32 0x00000000#32))
  have v46 : FVec Ideal S256x2048 .f32 := log1p v43
  have v47 : FVec Ideal S256x2048 .f32 := addf v45 v46
  have v49 : FVec Ideal S256x2048 .f32 := subf (broadcast S256x2048 (Scalar.ofBits .f32 0x00000000#32)) v47
  have v50 : FVec Ideal S256x2048 .f32 := exp v49
  have v52 : FVec Ideal S256x2048 .f32 := maximumf (broadcast S256x2048 (Scalar.ofBits .f32 0x33D6BF95#32)) v50
  have v54 : FVec Ideal S256x2048 .f32 := minimumf (broadcast S256x2048 (Scalar.ofBits .f32 0x3F7FFFFE#32)) v52
  have v56 : FVec Ideal S256x2048 .f32 := subf (broadcast S256x2048 (Scalar.ofBits .f32 0x3F800000#32)) v54
  have v57 : FVec Ideal S256x2048 .f32 := mulf v56 v56
  have v59 : FVec Ideal S256x2048 .f32 := mulf (broadcast S256x2048 (Scalar.ofBits .f32 0x3F800000#32)) v57
  mulf v59 v47

/-- At an entry it is the pair's loss of that entry's score difference. -/
theorem lossVec_apply (x : FVec Ideal S256x2048 .f32) (i : S256x2048.Idx) : lossVec x i = loss (x i) := by
  unfold loss splus clip
  rw [← Ideal.ofBits_zero_f32, ← one_f32]
  rfl

/-! ## The payloads at a row -/

theorem hz : (![0, 0] : Fin 2 → Nat) = fun _ => 0 := by funext a; fin_cases a <;> rfl

/-- A select on an equality of words is the choice on the equality. -/
theorem select_cmpi_eq {α : Type} (a b : BitVec 32) (x y : α) :
    Scalar.select (IntOp.cmpi .eq a b) x y = if a = b then x else y := by
  unfold Scalar.select
  exact if_congr StableHlo.Predicate.cmpi_eq_iff rfl rfl

/-- The column words of the first half. -/
theorem pay7_apply (r : Fin 256) (k : Fin 2048) : k0_pay7 (ix2 r k) = BitVec.ofNat 32 k.val := by
  unfold k0_pay7
  exact cols0_apply _ r k

/-- The positive score's accumulator after both halves, at row `r`. -/
theorem pos_row (v2 : Vec Ideal S256x1 .i32) (v5 v16 : Vec Ideal S256x2048 .f32) (r : Fin 256) :
    k0_pay4 (F := Ideal) v2 v5 v16 (ix2 r (0 : Fin 1))
      = ((0 : EReal) + ∑ k : Fin 2048, (if BitVec.ofNat 32 k.val = v2 (ix2 r (0 : Fin 1)) then v5 (ix2 r k) else 0))
        + ∑ k : Fin 2048, (if BitVec.ofNat 32 (2048 + k.val) = v2 (ix2 r (0 : Fin 1)) then v16 (ix2 r k) else 0) := by
  unfold k0_pay4 k0_pay3
  dsimp only
  rw [shapeCast_self]
  refine (addf_apply _ _ _).trans ?_
  refine congrArg₂ (· + ·) ((addf_apply _ _ _).trans (congrArg₂ (· + ·) ?_ ?_)) ?_
  · exact Ideal.ofBits_zero_f32
  · refine (rowsum_apply _ _ _ _ _ r).trans (Finset.sum_congr rfl fun k _ => ?_)
    refine (select_apply _ _ _ _).trans ?_
    show Scalar.select (IntOp.cmpi .eq (addi (broadcast S256x2048 (0#32 : BitVec 32)) (iota .tc S256x2048 32 [1] iota_S256x2048_d1_w32) (ix2 r k))
      (broadcastTo S256x2048 v2 broadcasts_S256x1_S256x2048 (ix2 r k))) (v5 (ix2 r k)) (Ideal.ofBits .f32 0x00000000#32) = _
    rw [cols0_apply, spread_apply, Ideal.ofBits_zero_f32, select_cmpi_eq]
  · refine (rowsum_apply _ _ _ _ _ r).trans (Finset.sum_congr rfl fun k _ => ?_)
    refine (select_apply _ _ _ _).trans ?_
    show Scalar.select (IntOp.cmpi .eq (addi (broadcast S256x2048 (2048#32 : BitVec 32)) (iota .tc S256x2048 32 [1] iota_S256x2048_d1_w32) (ix2 r k))
      (broadcastTo S256x2048 v2 broadcasts_S256x1_S256x2048 (ix2 r k))) (v16 (ix2 r k)) (Ideal.ofBits .f32 0x00000000#32) = _
    rw [cols1_apply, spread_apply, Ideal.ofBits_zero_f32, select_cmpi_eq]

/-- The negative's bit on the first half. -/
theorem neg0_apply (v0 v2 : Vec Ideal S256x1 .i32) (v30 : Vec Ideal S256x2048 .i32) (r : Fin 256) (k : Fin 2048) :
    k0_pay10 (F := Ideal) v30 k0_pay7 (k0_pay8 v0) (k0_pay9 v2) (ix2 r k)
      = negBit (v30 (ix2 r k)) (v0 (ix2 r (0 : Fin 1))) (v2 (ix2 r (0 : Fin 1))) (BitVec.ofNat 32 k.val) := by
  unfold k0_pay10 k0_pay8 k0_pay9 k0_pay2 k0_pay3 negBit
  dsimp only
  rw [shapeCast_self, shapeCast_self]
  show IntOp.andi (IntOp.andi (IntOp.cmpi .eq (v30 (ix2 r k)) 1#32)
      (IntOp.xori (IntOp.cmpi .eq (k0_pay7 (ix2 r k)) (broadcastTo S256x2048 v0 broadcasts_S256x1_S256x2048 (ix2 r k))) 1#1))
      (IntOp.xori (IntOp.cmpi .eq (k0_pay7 (ix2 r k)) (broadcastTo S256x2048 v2 broadcasts_S256x1_S256x2048 (ix2 r k))) 1#1) = _
  rw [pay7_apply, spread_apply, spread_apply]

/-- The negative's bit on the second half. -/
theorem neg1_apply (v1 v3 : IVec S256x1 32) (v79 : Vec Ideal S256x2048 .i32) (r : Fin 256) (k : Fin 2048) :
    k0_pay13 (F := Ideal) v1 v3 v79 (ix2 r k)
      = negBit (v79 (ix2 r k)) (v1 (ix2 r (0 : Fin 1))) (v3 (ix2 r (0 : Fin 1))) (BitVec.ofNat 32 (2048 + k.val)) := by
  unfold k0_pay13 negBit
  dsimp only
  show IntOp.andi (IntOp.andi (IntOp.cmpi .eq (v79 (ix2 r k)) 1#32)
      (IntOp.xori (IntOp.cmpi .eq (addi (broadcast S256x2048 (2048#32 : BitVec 32)) (iota .tc S256x2048 32 [1] iota_S256x2048_d1_w32) (ix2 r k))
        (broadcastTo S256x2048 v1 broadcasts_S256x1_S256x2048 (ix2 r k))) 1#1))
      (IntOp.xori (IntOp.cmpi .eq (addi (broadcast S256x2048 (2048#32 : BitVec 32)) (iota .tc S256x2048 32 [1] iota_S256x2048_d1_w32) (ix2 r k))
        (broadcastTo S256x2048 v3 broadcasts_S256x1_S256x2048 (ix2 r k))) 1#1) = _
  rw [cols1_apply, spread_apply, spread_apply]

/-- The count's accumulator after the first half, at row `r`. -/
theorem cnt0_row (v28 : FVec Ideal S256x1 .f32) (v30 : Vec Ideal S256x2048 .i32) (v33 : IVec S256x2048 32) (v35 : IVec S256x2048 1)
    (v36 : IVec S256x2048 32) (r : Fin 256) :
    k0_pay12 (F := Ideal) v28 v30 v33 v35 v36 (ix2 r (0 : Fin 1))
      = v28 (ix2 r (0 : Fin 1)) + ∑ k : Fin 2048, Scalar.select (k0_pay10 (F := Ideal) v30 v33 v35 v36 (ix2 r k)) (1 : EReal) 0 := by
  unfold k0_pay12
  dsimp only
  refine (addf_apply _ _ _).trans (congrArg₂ (· + ·) rfl ?_)
  refine (rowsum_apply _ _ _ _ _ r).trans (Finset.sum_congr rfl fun k _ => ?_)
  refine (select_apply _ _ _ _).trans ?_
  show Scalar.select _ (Ideal.ofBits .f32 0x3F800000#32) (Ideal.ofBits .f32 0x00000000#32) = _
  rw [one_f32, Ideal.ofBits_zero_f32]

/-- The loss sum's accumulator after the first half, at row `r`. -/
theorem rs0_row (v26 v27 : FVec Ideal S256x1 .f32) (v29 : Vec Ideal S256x2048 .f32) (v30 : Vec Ideal S256x2048 .i32) (v33 : IVec S256x2048 32)
    (v35 : IVec S256x2048 1) (v36 : IVec S256x2048 32) (r : Fin 256) :
    k0_pay11 (F := Ideal) v26 v27 v29 v30 v33 v35 v36 (ix2 r (0 : Fin 1))
      = v27 (ix2 r (0 : Fin 1)) + ∑ k : Fin 2048, Scalar.select (k0_pay10 (F := Ideal) v30 v33 v35 v36 (ix2 r k))
          (loss (v29 (ix2 r k) - v26 (ix2 r (0 : Fin 1)))) 0 := by
  have e : k0_pay11 (F := Ideal) v26 v27 v29 v30 v33 v35 v36
      = addf v27 (shapeCast S256x1 (multiReduction .add [1] S256
          (select (k0_pay10 (F := Ideal) v30 v33 v35 v36) (lossVec (subf v29 (broadcastTo S256x2048 v26 broadcasts_S256x1_S256x2048)))
            (broadcast S256x2048 (Scalar.ofBits .f32 0x00000000#32)))
          0x00000000#32 reduces_S256x2048_S256 (.inl rfl) rfl) shapeCasts_S256_S256x1) := rfl
  rw [e]
  refine (addf_apply _ _ _).trans (congrArg₂ (· + ·) rfl ?_)
  refine (rowsum_apply _ _ _ _ _ r).trans (Finset.sum_congr rfl fun k _ => ?_)
  refine (select_apply _ _ _ _).trans ?_
  rw [lossVec_apply]
  show Scalar.select _ (loss (v29 (ix2 r k) - broadcastTo S256x2048 v26 broadcasts_S256x1_S256x2048 (ix2 r k))) (Ideal.ofBits .f32 0x00000000#32) = _
  rw [spread_apply, Ideal.ofBits_zero_f32]

/-- The loss sum's accumulator after the second half, at row `r`. -/
theorem rs1_row (v1 v3 : IVec S256x1 32) (v26 v71 : FVec Ideal S256x1 .f32) (v78 : Vec Ideal S256x2048 .f32) (v79 : Vec Ideal S256x2048 .i32)
    (r : Fin 256) :
    k0_pay14 (F := Ideal) v1 v3 v26 v71 v78 v79 (ix2 r (0 : Fin 1))
      = v71 (ix2 r (0 : Fin 1)) + ∑ k : Fin 2048, Scalar.select (k0_pay13 (F := Ideal) v1 v3 v79 (ix2 r k))
          (loss (v78 (ix2 r k) - v26 (ix2 r (0 : Fin 1)))) 0 := by
  have e : k0_pay14 (F := Ideal) v1 v3 v26 v71 v78 v79
      = addf v71 (shapeCast S256x1 (multiReduction .add [1] S256
          (select (k0_pay13 (F := Ideal) v1 v3 v79) (lossVec (subf v78 (broadcastTo S256x2048 v26 broadcasts_S256x1_S256x2048)))
            (broadcast S256x2048 (Scalar.ofBits .f32 0x00000000#32)))
          0x00000000#32 reduces_S256x2048_S256 (.inl rfl) rfl) shapeCasts_S256_S256x1) := rfl
  rw [e]
  refine (addf_apply _ _ _).trans (congrArg₂ (· + ·) rfl ?_)
  refine (rowsum_apply _ _ _ _ _ r).trans (Finset.sum_congr rfl fun k _ => ?_)
  refine (select_apply _ _ _ _).trans ?_
  rw [lossVec_apply]
  show Scalar.select _ (loss (v78 (ix2 r k) - broadcastTo S256x2048 v26 broadcasts_S256x1_S256x2048 (ix2 r k))) (Ideal.ofBits .f32 0x00000000#32) = _
  rw [spread_apply, Ideal.ofBits_zero_f32]

/-- The stored value at row `r`: the mean over the count, 0 when the count is 0. -/
theorem fin_row (v77 v120 : FVec Ideal S256x1 .f32) (v115 : IVec S256x2048 1) (v121 v122 : FVec Ideal S256x2048 .f32) (r : Fin 256) :
    k0_pay1 (F := Ideal) v77 v115 v120 v121 v122 (ix2 r (0 : Fin 1))
      = Scalar.select (Ideal.cmp .ogt (v77 (ix2 r (0 : Fin 1)) + ∑ k : Fin 2048, Scalar.select (v115 (ix2 r k)) (v121 (ix2 r k)) (v122 (ix2 r k))) 0)
          (Ideal.div (v120 (ix2 r (0 : Fin 1)))
            (max (v77 (ix2 r (0 : Fin 1)) + ∑ k : Fin 2048, Scalar.select (v115 (ix2 r k)) (v121 (ix2 r k)) (v122 (ix2 r k))) 1)) 0 := by
  unfold k0_pay1
  dsimp only
  refine (select_apply _ _ _ _).trans ?_
  have hc : addf v77 (shapeCast S256x1 (multiReduction .add [1] S256 (select v115 v121 v122) 0x00000000#32 reduces_S256x2048_S256 (.inl rfl) rfl)
      shapeCasts_S256_S256x1) (ix2 r (0 : Fin 1))
      = v77 (ix2 r (0 : Fin 1)) + ∑ k : Fin 2048, Scalar.select (v115 (ix2 r k)) (v121 (ix2 r k)) (v122 (ix2 r k)) :=
    (addf_apply _ _ _).trans (congrArg₂ (· + ·) rfl ((rowsum_apply _ _ _ _ _ r).trans (Finset.sum_congr rfl fun k _ => select_apply _ _ _ _)))
  show Scalar.select (Ideal.cmp .ogt (addf v77 _ (ix2 r (0 : Fin 1))) (Ideal.ofBits .f32 0x00000000#32))
      (Ideal.div (v120 (ix2 r (0 : Fin 1))) (max (addf v77 _ (ix2 r (0 : Fin 1))) (Ideal.ofBits .f32 0x3F800000#32))) (Ideal.ofBits .f32 0x00000000#32) = _
  rw [hc, one_f32, Ideal.ofBits_zero_f32]

/-- A cast of a column to its own shape changes nothing. -/
theorem pay2_eq (v : Vec Ideal S256x1 .i32) : k0_pay2 (F := Ideal) v = v := by
  unfold k0_pay2
  exact shapeCast_self _ _

theorem pay3_eq (v : Vec Ideal S256x1 .i32) : k0_pay3 (F := Ideal) v = v := by
  unfold k0_pay3
  exact shapeCast_self _ _

/-- What the body leaves in the output block at row `r`: the loss of the sample whose scores, mask words, head word and tail word are
    row `r` of the four input blocks. -/
theorem out_row (x0 : Vec Ideal S256x4096 .f32) (x1 : Vec Ideal S256x4096 .i32) (x2 x3 : Vec Ideal S256x1 .i32) (r : Fin 256) :
    out0_4 (F := Ideal) x0 x1 x2 x3 (ix2 r (0 : Fin 1))
      = Cert.Focal.rowLoss (fun j => x0 (ix2 r j)) (fun j => x1 (ix2 r j)) (x2 (ix2 r (0 : Fin 1))) (x3 (ix2 r (0 : Fin 1))) := by
  unfold out0_4
  rw [View.canon_unit_zero hz]
  simp only [View.ld_unit_zero (S := S256x1) hz]
  -- the positive score of the row
  have hpos : k0_pay4 (F := Ideal) x3 (View.ld x0 r0_1) (View.ld x0 r0_2) (ix2 r (0 : Fin 1))
      = posScore (fun j => x0 (ix2 r j)) (x3 (ix2 r (0 : Fin 1))) := by
    rw [pos_row, zero_add]
    refine Eq.trans (congrArg₂ (· + ·) (Finset.sum_congr rfl fun k _ => ?_) (Finset.sum_congr rfl fun k _ => ?_))
      (sum_halves (fun j : Fin 4096 => if BitVec.ofNat 32 j.val = x3 (ix2 r (0 : Fin 1)) then x0 (ix2 r j) else 0))
    · rw [half0_apply (Val := Elt Ideal) (e := .f32) x0 inb_S256x4096_S256x2048_0_0 r k]
    · rw [half1_apply (Val := Elt Ideal) (e := .f32) x0 inb_S256x4096_S256x2048_0_2048 r k]
  -- the count of the row's negatives
  have hcnt : k0_pay12 (F := Ideal) (k0_pay6 (F := Ideal)) (View.ld x1 r0_1) k0_pay7 (k0_pay8 x2) (k0_pay9 x3) (ix2 r (0 : Fin 1))
        + ∑ k : Fin 2048, Scalar.select (k0_pay13 (F := Ideal) (k0_pay2 x2) (k0_pay3 x3) (View.ld x1 r0_2) (ix2 r k))
            (k0_pay15 (F := Ideal) (ix2 r k)) (k0_pay16 (F := Ideal) (ix2 r k))
      = negCount (fun j => x1 (ix2 r j)) (x2 (ix2 r (0 : Fin 1))) (x3 (ix2 r (0 : Fin 1))) := by
    rw [cnt0_row]
    have h6 : k0_pay6 (F := Ideal) (ix2 r (0 : Fin 1)) = 0 := Ideal.ofBits_zero_f32
    refine Eq.trans (congrArg₂ (· + ·) (congrArg₂ (· + ·) h6 (Finset.sum_congr rfl fun k _ => ?_)) (Finset.sum_congr rfl fun k _ => ?_))
      ((congrArg₂ (· + ·) (zero_add _) rfl).trans
        (sum_halves (fun j : Fin 4096 => if isNeg (fun j => x1 (ix2 r j)) (x2 (ix2 r (0 : Fin 1))) (x3 (ix2 r (0 : Fin 1))) j then (1 : EReal) else 0)))
    · rw [neg0_apply, half0_apply (Val := Elt Ideal) (e := .i32) x1 inb_S256x4096_S256x2048_0_0 r k]
      exact select_negBit (fun j => x1 (ix2 r j)) _ _ ⟨k.val, by omega⟩ _ _
    · rw [neg1_apply, half1_apply (Val := Elt Ideal) (e := .i32) x1 inb_S256x4096_S256x2048_0_2048 r k, pay2_eq, pay3_eq]
      show Scalar.select _ (Ideal.ofBits .f32 0x3F800000#32) (Ideal.ofBits .f32 0x00000000#32) = _
      rw [one_f32, Ideal.ofBits_zero_f32]
      exact select_negBit (fun j => x1 (ix2 r j)) _ _ ⟨2048 + k.val, by omega⟩ _ _
  -- the sum of the negatives' losses
  have hrs : k0_pay14 (F := Ideal) (k0_pay2 x2) (k0_pay3 x3) (k0_pay4 x3 (View.ld x0 r0_1) (View.ld x0 r0_2))
        (k0_pay11 (F := Ideal) (k0_pay4 x3 (View.ld x0 r0_1) (View.ld x0 r0_2)) (k0_pay5 (F := Ideal)) (View.ld x0 r0_1) (View.ld x1 r0_1) k0_pay7 (k0_pay8 x2) (k0_pay9 x3))
        (View.ld x0 r0_2) (View.ld x1 r0_2) (ix2 r (0 : Fin 1))
      = negLoss (fun j => x0 (ix2 r j)) (fun j => x1 (ix2 r j)) (x2 (ix2 r (0 : Fin 1))) (x3 (ix2 r (0 : Fin 1))) := by
    rw [rs1_row, rs0_row, hpos]
    have h5 : k0_pay5 (F := Ideal) (ix2 r (0 : Fin 1)) = 0 := Ideal.ofBits_zero_f32
    refine Eq.trans (congrArg₂ (· + ·) (congrArg₂ (· + ·) h5 (Finset.sum_congr rfl fun k _ => ?_)) (Finset.sum_congr rfl fun k _ => ?_))
      ((congrArg₂ (· + ·) (zero_add _) rfl).trans
        (sum_halves (fun j : Fin 4096 => if isNeg (fun j => x1 (ix2 r j)) (x2 (ix2 r (0 : Fin 1))) (x3 (ix2 r (0 : Fin 1))) j
            then loss (x0 (ix2 r j) - posScore (fun j => x0 (ix2 r j)) (x3 (ix2 r (0 : Fin 1)))) else 0)))
    · rw [neg0_apply, half0_apply (Val := Elt Ideal) (e := .i32) x1 inb_S256x4096_S256x2048_0_0 r k,
        half0_apply (Val := Elt Ideal) (e := .f32) x0 inb_S256x4096_S256x2048_0_0 r k]
      exact select_negBit (fun j => x1 (ix2 r j)) _ _ ⟨k.val, by omega⟩ _ _
    · rw [neg1_apply, half1_apply (Val := Elt Ideal) (e := .i32) x1 inb_S256x4096_S256x2048_0_2048 r k,
        half1_apply (Val := Elt Ideal) (e := .f32) x0 inb_S256x4096_S256x2048_0_2048 r k, pay2_eq, pay3_eq]
      exact select_negBit (fun j => x1 (ix2 r j)) _ _ ⟨2048 + k.val, by omega⟩ _ _
  rw [fin_row, hcnt, hrs]
  rfl

end Cert.KernelIdeal.FocalRow

end
-- ==== Proof.KernelValue.lean ====
import proofs.«420171_j23390391894538_3_alg».proof.Proof.Gen.KernelIdeal.Frame
import proofs.«420171_j23390391894538_3_alg».proof.Proof.Spec
import proofs.«420171_j23390391894538_3_alg».proof.Proof.KernelRow
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.FocalValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The losses of all samples as one column -/

/-- The loss of sample `b`: its scores and mask words are row `b` of the two matrices, its head and tail words row `b` of the two columns. -/
def sampleLoss (A0 : S8192x4096.Idx → EReal) (A3 : S8192x4096.Idx → BitVec 32) (H T : S8192x1.Idx → BitVec 32) (b : Fin 8192) : EReal :=
  Cert.Focal.rowLoss (fun j => A0 (ix2 b j)) (fun j => A3 (ix2 b j)) (H (ix2 b (0 : Fin 1))) (T (ix2 b (0 : Fin 1)))

/-- The column of all samples' losses. -/
def lossCol (A0 : S8192x4096.Idx → EReal) (A3 : S8192x4096.Idx → BitVec 32) (H T : S8192x1.Idx → BitVec 32) : S8192x1.Idx → EReal :=
  fun i => sampleLoss A0 A3 H T (i 0)

/-! ## Where each block lies in its array -/

/-- The grid has 32 points. -/
theorem points : cfg0.N = 32 := N_0

/-- At point `t` every window's block is block `t` along the rows and block 0 along the columns. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of block `t` is row `256 t + r` of the array. -/
theorem row_lt (t : Fin cfg0.N) (r : Fin 256) : 256 * t.val + r.val < 8192 := by
  have h := t.isLt
  have hN : cfg0.N = 32 := N_0
  have hr := r.isLt
  omega

/-- The scores' block at point `t`, read at row `r` and column `j`. -/
theorem scores_blk (c : Dev nD) (t : Fin cfg0.N) (r : Fin 256) (j : Fin 4096) :
    (iblk m c 0 t : Vec Ideal S256x4096 .f32) (ix2 r j)
      = (V m c main_arg0 : S8192x4096.Idx → EReal) (ix2 (⟨256 * t.val + r.val, row_lt t r⟩ : Fin 8192) j) := by
  obtain ⟨h0, h1, -⟩ := block_index t
  unfold iblk
  rw [View.read_apply]
  show V m c main_arg0 _ = V m c main_arg0 _
  congr 1
  funext a
  apply Fin.ext
  match a with
  | ⟨0, _⟩ => show win0_0.index t 0 * 256 + 1 * r.val = 256 * t.val + r.val; rw [h0]; omega
  | ⟨1, _⟩ => show win0_0.index t 1 * 4096 + 1 * j.val = j.val; rw [h1]; omega

/-- The mask's block at point `t`, read at row `r` and column `j`. -/
theorem mask_blk (c : Dev nD) (t : Fin cfg0.N) (r : Fin 256) (j : Fin 4096) :
    (iblk m c 1 t : Vec Ideal S256x4096 .i32) (ix2 r j)
      = (V m c main_arg3 : S8192x4096.Idx → BitVec 32) (ix2 (⟨256 * t.val + r.val, row_lt t r⟩ : Fin 8192) j) := by
  obtain ⟨-, -, h0, h1, -⟩ := block_index t
  unfold iblk
  rw [View.read_apply]
  show V m c main_arg3 _ = V m c main_arg3 _
  congr 1
  funext a
  apply Fin.ext
  match a with
  | ⟨0, _⟩ => show win0_1.index t 0 * 256 + 1 * r.val = 256 * t.val + r.val; rw [h0]; omega
  | ⟨1, _⟩ => show win0_1.index t 1 * 4096 + 1 * j.val = j.val; rw [h1]; omega

/-- The head column's block at point `t`, read at row `r`. -/
theorem head_blk (c : Dev nD) (t : Fin cfg0.N) (r : Fin 256) :
    (iblk m c 2 t : Vec Ideal S256x1 .i32) (ix2 r (0 : Fin 1))
      = (V m c main_v0 : S8192x1.Idx → BitVec 32) (ix2 (⟨256 * t.val + r.val, row_lt t r⟩ : Fin 8192) (0 : Fin 1)) := by
  obtain ⟨-, -, -, -, h0, h1, -⟩ := block_index t
  unfold iblk
  rw [View.read_apply]
  show V m c main_v0 _ = V m c main_v0 _
  congr 1
  funext a
  apply Fin.ext
  match a with
  | ⟨0, _⟩ => show win0_2.index t 0 * 256 + 1 * r.val = 256 * t.val + r.val; rw [h0]; omega
  | ⟨1, _⟩ => show win0_2.index t 1 * 1 + 1 * 0 = 0; rw [h1]

/-- The tail column's block at point `t`, read at row `r`. -/
theorem tail_blk (c : Dev nD) (t : Fin cfg0.N) (r : Fin 256) :
    (iblk m c 3 t : Vec Ideal S256x1 .i32) (ix2 r (0 : Fin 1))
      = (V m c main_v1 : S8192x1.Idx → BitVec 32) (ix2 (⟨256 * t.val + r.val, row_lt t r⟩ : Fin 8192) (0 : Fin 1)) := by
  obtain ⟨-, -, -, -, -, -, h0, h1, -⟩ := block_index t
  unfold iblk
  rw [View.read_apply]
  show V m c main_v1 _ = V m c main_v1 _
  congr 1
  funext a
  apply Fin.ext
  match a with
  | ⟨0, _⟩ => show win0_3.index t 0 * 256 + 1 * r.val = 256 * t.val + r.val; rw [h0]; omega
  | ⟨1, _⟩ => show win0_3.index t 1 * 1 + 1 * 0 = 0; rw [h1]

/-! ## What a point writes back -/

/-- Row `r` of what the body leaves at point `t` is the loss of sample `256 t + r`. -/
theorem out_blk (c : Dev nD) (t : Fin cfg0.N) (r : Fin 256) :
    out0_4 (F := Ideal) (iblk m c 0 t) (iblk m c 1 t) (iblk m c 2 t) (iblk m c 3 t) (ix2 r (0 : Fin 1))
      = sampleLoss (V m c main_arg0) (V m c main_arg3) (V m c main_v0) (V m c main_v1) (⟨256 * t.val + r.val, row_lt t r⟩ : Fin 8192) := by
  refine (Cert.KernelIdeal.FocalRow.out_row (iblk m c 0 t) (iblk m c 1 t) (iblk m c 2 t) (iblk m c 3 t) r).trans ?_
  unfold sampleLoss
  rw [head_blk m c t r, tail_blk m c t r]
  congr 1
  · funext j; exact scores_blk m c t r j
  · funext j; exact mask_blk m c t r j

/-- The loss column over the arrays as the region finds them. -/
abbrev lossColV (c : Dev nD) : S8192x1.Idx → EReal :=
  lossCol (V m c main_arg0) (V m c main_arg3) (V m c main_v0) (V m c main_v1)

/-- What point `t` writes back is block `t` of the loss column. -/
theorem flushed_eq (c : Dev nD) (t : Fin cfg0.N) :
    (dats m 0 c).flushed 4 t = ((cfg0.win 4).blk t).view.read (Elt Ideal) (lossColV m c) := by
  show (cfg0.win 4).cut (grid0.coords t) ((dats m 0 c).after 4 t) = _
  rw [after0_4]
  obtain ⟨-, -, -, -, -, -, -, -, h0, -⟩ := block_index t
  funext y
  rw [View.read_apply]
  have hy0 : (y 0).val < 256 := (y 0).isLt
  have hy1 : (y 1).val < 1 := (y 1).isLt
  show out0_4 (F := Ideal) (iblk m c 0 t) (iblk m c 1 t) (iblk m c 2 t) (iblk m c 3 t) ((cfg0.win 4).xinj (grid0.coords t) y)
    = lossColV m c (((cfg0.win 4).blk t).view.emb y)
  have ex : (cfg0.win 4).xinj (grid0.coords t) y = ix2 (⟨(y 0).val, hy0⟩ : Fin 256) (0 : Fin 1) := by
    funext a
    apply Fin.ext
    match a with
    | ⟨0, _⟩ => rfl
    | ⟨1, _⟩ => show (y 1).val = 0; omega
  rw [ex, out_blk m c t ⟨(y 0).val, hy0⟩]
  show _ = sampleLoss _ _ _ _ ((((cfg0.win 4).blk t).view.emb y) 0)
  congr 1
  apply Fin.ext
  show 256 * t.val + (y 0).val = win0_4.index t 0 * 256 + 1 * (y 0).val
  rw [h0]; omega

/-! ## The blocks cover the column -/

/-- An index of the column is in point `t`'s block iff each coordinate is in the block's range on its axis. -/
theorem mem_blk (t : Fin cfg0.N) (i : S8192x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v2).slice (win0_4.rect t)).set ↔ _
  rw [View.set_slice_whole, Rect.mem_set_unit]
  exact Iff.rfl

/-- Row `b` of the column lies in the block of point `b / 256`. -/
theorem cover (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 32 := N_0
  have ht : (i 0).val / 256 < cfg0.N := by omega
  obtain ⟨-, -, -, -, -, -, -, -, h0, h1⟩ := block_index ⟨(i 0).val / 256, ht⟩
  refine ⟨⟨(i 0).val / 256, ht⟩, flush0_4 _, ?_⟩
  rw [mem_blk]
  intro a
  match a with
  | ⟨0, _⟩ =>
    show win0_4.index ⟨(i 0).val / 256, ht⟩ 0 * 256 ≤ (i 0).val ∧ (i 0).val < win0_4.index ⟨(i 0).val / 256, ht⟩ 0 * 256 + 256
    rw [h0]; show (i 0).val / 256 * 256 ≤ (i 0).val ∧ (i 0).val < (i 0).val / 256 * 256 + 256; omega
  | ⟨1, _⟩ =>
    show win0_4.index ⟨(i 0).val / 256, ht⟩ 1 * 1 ≤ (i 1).val ∧ (i 1).val < win0_4.index ⟨(i 0).val / 256, ht⟩ 1 * 1 + 1
    rw [h1]; omega

/-- So the result column ends holding every sample's loss. -/
theorem final (c : Dev nD) : (dats m 0 c).arrAt 4 cfg0.N = lossColV m c :=
  (dats m 0 c).arrAt_eq_of_cover 4 (lossColV m c) (fun t _ => flushed_eq m c t) cover

/-! ## The arrays as the region finds them -/

/-- The head column as the region finds it is the head vector reshaped. -/
theorem head_col (c : Dev nD) :
    (V m c main_v0 : S8192x1.Idx → BitVec 32)
      = shapeCast S8192x1 (m ((c : Thread nD τ).loc main_arg1) : S8192.Idx → BitVec 32) shapeCasts_S8192_S8192x1 := by
  show StableHlo.after hostOps0 (fun b => m (c, b)) (Proc.devRef .tc main_v0) = _
  after_results
  rfl

/-- The tail column as the region finds it is the tail vector reshaped. -/
theorem tail_col (c : Dev nD) :
    (V m c main_v1 : S8192x1.Idx → BitVec 32)
      = shapeCast S8192x1 (m ((c : Thread nD τ).loc main_arg2) : S8192.Idx → BitVec 32) shapeCasts_S8192_S8192x1 := by
  show StableHlo.after hostOps0 (fun b => m (c, b)) (Proc.devRef .tc main_v1) = _
  after_results
  rfl

/-- A vector reshaped into a column, read at row `b`, is the vector at `b`. -/
theorem column_apply (x : S8192.Idx → BitVec 32) (b : Fin 8192) :
    shapeCast S8192x1 x shapeCasts_S8192_S8192x1 (ix2 b (0 : Fin 1)) = x (ix1 b) := by
  refine shapeCast_apply x shapeCasts_S8192_S8192x1 (ix2 b (0 : Fin 1)) (ix1 b) ?_
  rw [Shape.rowMajor_val_one, Shape.rowMajor_val_two]
  show b.val = b.val * 1 + 0
  omega

/-- A sample's loss over the arrays as the region finds them is its loss over the launch contents of the arguments. -/
theorem sampleLoss_entry (c : Dev nD) (b : Fin 8192) :
    sampleLoss (V m c main_arg0) (V m c main_arg3) (V m c main_v0) (V m c main_v1) b
      = Cert.Focal.rowLoss (fun j => (m ((c.tc : Thread nD τ).loc main_arg0) : S8192x4096.Idx → EReal) (ix2 b j))
          (fun j => (m ((c.tc : Thread nD τ).loc main_arg3) : S8192x4096.Idx → BitVec 32) (ix2 b j))
          ((m ((c.tc : Thread nD τ).loc main_arg1) : S8192.Idx → BitVec 32) (ix1 b))
          ((m ((c.tc : Thread nD τ).loc main_arg2) : S8192.Idx → BitVec 32) (ix1 b)) := by
  unfold sampleLoss
  rw [V_main_arg0, V_main_arg3, head_col, tail_col, column_apply, column_apply]

/-! ## The sum over the column, and the tail of the program -/

/-- A sum over the indices of a one-column array is the sum over its rows. -/
theorem sum_column (f : Fin 8192 → EReal) : ∑ i : S8192x1.Idx, f (i 0) = ∑ b : Fin 8192, f b := by
  refine Fintype.sum_equiv ⟨fun i => i 0, fun b => ix2 b (0 : Fin 1), fun i => ?_, fun b => rfl⟩ _ _ (fun i => rfl)
  funext a
  match a with
  | ⟨0, _⟩ => rfl
  | ⟨1, _⟩ =>
    apply Fin.ext
    have h1 : (i 1).val < 1 := (i 1).isLt
    show 0 = (i 1).val
    omega

/-- The loss column summed over all its indices is the sum of the samples' losses over the launch contents of the arguments. -/
theorem sum_lossCol (c : Dev nD) :
    ∑ i : S8192x1.Idx, lossColV m c i
      = ∑ b : Fin 8192, Cert.Focal.rowLoss (fun j => (m ((c.tc : Thread nD τ).loc main_arg0) : S8192x4096.Idx → EReal) (ix2 b j))
          (fun j => (m ((c.tc : Thread nD τ).loc main_arg3) : S8192x4096.Idx → BitVec 32) (ix2 b j))
          ((m ((c.tc : Thread nD τ).loc main_arg1) : S8192.Idx → BitVec 32) (ix1 b))
          ((m ((c.tc : Thread nD τ).loc main_arg2) : S8192.Idx → BitVec 32) (ix1 b)) := by
  show ∑ i : S8192x1.Idx, sampleLoss (V m c main_arg0) (V m c main_arg3) (V m c main_v0) (V m c main_v1) (i 0) = _
  rw [sum_column (sampleLoss (V m c main_arg0) (V m c main_arg3) (V m c main_v0) (V m c main_v1))]
  exact Finset.sum_congr rfl fun b _ => sampleLoss_entry m c b

/-- What the operations after the region leave in the result: the samples' losses summed from 0 and divided by 8192. -/
theorem tail_eq (c : Dev nD) :
    Pipeline.afterTail₀ cfgs (dats m) 0 (V0 m) [hostOps1] c main_v4
      = fun _ => Cert.Focal.total (m ((c.tc : Thread nD τ).loc main_arg0)) (m ((c.tc : Thread nD τ).loc main_arg1))
              (m ((c.tc : Thread nD τ).loc main_arg2)) (m ((c.tc : Thread nD τ).loc main_arg3)) := by
  unfold Pipeline.afterTail₀
  show StableHlo.after hostOps1 _ (Proc.devRef .tc main_v4) = _
  after_results
  have hv2 : Pipeline.withArrays (cfgs 0).spec c (V0 m c) (fun w => (dats m 0 c).arrAt w (cfgs 0).N) (Proc.devRef .tc main_v2)
      = lossColV m c :=
    (Pipeline.withArrays_arr spec0 launch0.win.arr_inj c _ _ 4).trans (final m c)
  rw [hv2]
  funext j
  show Ideal.div (Ideal.hostReduceAdd reducesTo_S8192x1_S_d0_1 (lossColV m c) (Ideal.ofBits .f32 0x00000000#32) j)
      (Ideal.ofBits .f32 0x46000000#32) = _
  rw [Ideal.hostReduceAdd_total _ (fun b => b.elim0), Ideal.ofBits_zero_f32, sum_lossCol m c]
  unfold Cert.Focal.total
  rfl

/-! ## The run -/

/-- The idealized kernel's run: it ends with its result at the batch's loss of the launch contents of its four arguments, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = (fun _ => Cert.Focal.total (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩)
    (run_main m ρ)

end Cert.KernelIdeal.FocalValue

end
-- ==== Proof.PreDecode.lean ====
import proofs.«420171_j23390391894538_3_alg».proof.Pre_finite_inputs
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx

variable [Cert.Pre_finite_inputs.Facts]

/-- The scalar shape has one index. -/
instance : Subsingleton Cert.Pre_finite_inputs.S_.Idx := ⟨fun _ _ => funext fun d => d.elim0⟩

/-- A 32-bit word that is at least 0 and below 4096 when read signed is below 4096 when read unsigned:
    a word with its top bit set reads negative, and one with its top bit clear reads as its unsigned value. -/
theorem toNat_lt (w : BitVec 32) (h0 : IntOp.cmpi .sge w (0#32) = 1#1) (h1 : IntOp.cmpi .slt w (4096#32) = 1#1) :
    w.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  have hw := w.isLt
  unfold BitVec.toInt at h0 h1
  by_cases hc : 2 * w.toNat < 2 ^ 32
  · rw [if_pos hc] at h1
    omega
  · rw [if_neg hc] at h0
    omega

/-- One range check of the precondition, read back: an all-true reduction of the elementwise
    conjunction "word ≥ 0 signed and word < 4096 signed" puts every word of the vector below 4096. -/
theorem all_lt (a : IVec Cert.Pre_finite_inputs.S8192 32) (init : IVec Cert.Pre_finite_inputs.S_ 1)
    (j : Cert.Pre_finite_inputs.S_.Idx)
    (e : Host.reduce IntOp.andi
        (andi
          (cmpi .sge a (broadcastInDim Cert.Pre_finite_inputs.S8192 ![] Cert.Pre_finite_inputs.Facts.bcast_S_S8192
            (constantI Cert.Pre_finite_inputs.S_ 32 0#32)))
          (cmpi .slt a (broadcastInDim Cert.Pre_finite_inputs.S8192 ![] Cert.Pre_finite_inputs.Facts.bcast_S_S8192
            (constantI Cert.Pre_finite_inputs.S_ 32 4096#32))))
        init Cert.Pre_finite_inputs.Facts.reducesTo_S8192_S_d0 Cert.Pre_finite_inputs.Facts.h_S_ j = 1#1)
    (b : Fin 8192) : (a (ix1 b)).toNat < 4096 := by
  have hb := Host.reduce_andi_all _ _ _ _ _ e (ix1 b)
  change IntOp.andi (IntOp.cmpi .sge (a (ix1 b)) (0#32)) (IntOp.cmpi .slt (a (ix1 b)) (4096#32)) = 1#1 at hb
  obtain ⟨h0, h1⟩ := IntOp.andi_eq_one.1 hb
  exact toNat_lt _ h0 h1

/-- The precondition says, of the two index vectors, that every head word and every tail word is a column's number. -/
theorem ranges {F : FTy → Type} [FloatOps F] (a0 : FVec F Cert.Pre_finite_inputs.S8192x4096 .f32)
    (a1 a2 : IVec Cert.Pre_finite_inputs.S8192 32) (a3 : IVec Cert.Pre_finite_inputs.S8192x4096 32)
    (h : Cert.Pre_finite_inputs.fn (F := F) a0 a1 a2 a3 = fun _ => 1#1) :
    (∀ b : Fin 8192, (a1 (ix1 b)).toNat < 4096) ∧ (∀ b : Fin 8192, (a2 (ix1 b)).toNat < 4096) := by
  have e := congrFun h ix0
  unfold Cert.Pre_finite_inputs.fn Cert.Pre_finite_inputs.fn_part1 at e
  dsimp only at e
  change IntOp.andi (IntOp.andi _ _) _ = 1#1 at e
  obtain ⟨e12, e3⟩ := IntOp.andi_eq_one.1 e
  obtain ⟨-, e2⟩ := IntOp.andi_eq_one.1 e12
  exact ⟨all_lt a1 _ _ e2, all_lt a2 _ _ e3⟩

end Cert.PreDecode

end
-- ==== Proof.lean ====
/- The proof of `Cert.Claim`: the pallas kernel of the pairwise focal loss against its jnp reference, over the extended reals.

   Both programs compute, for each of the 8192 samples, the mean over the sample's negatives of the pair losses
   `(1 - pt)² · softplus (s_j - s_tail)` (0 for a sample without negatives), and then the mean of the samples' losses. The kernel
   reads the positive score as a sum against the indicator of the tail column and marks the head and tail columns by comparing column
   numbers; the reference gathers the positive score at the tail index and overwrites the two columns of the mask by a scatter. With
   every head and tail index a column's number (the precondition's two index ranges) the two agree: both results are
   `Cert.Focal.total` of the four arguments (Proof/Spec.lean). The kernel's side is Proof/KernelRow.lean (one row of a block) and
   Proof/KernelValue.lean (the blocks laid into the array, then the closing sum and quotient); the reference's is Proof/RefValue.lean;
   Proof/PreDecode.lean reads the index ranges off the precondition. The finiteness of the scores is not used. -/
import proofs.«420171_j23390391894538_3_alg».proof.Defs
import proofs.«420171_j23390391894538_3_alg».proof.Proof.Gen.Kernel
import proofs.«420171_j23390391894538_3_alg».proof.Proof.Gen.Kernel.Frame
import proofs.«420171_j23390391894538_3_alg».proof.Proof.Gen.KernelIdeal
import proofs.«420171_j23390391894538_3_alg».proof.Proof.Gen.KernelIdeal.Frame
import proofs.«420171_j23390391894538_3_alg».proof.Proof.Gen.ReferenceIdeal
import proofs.«420171_j23390391894538_3_alg».proof.Proof.Gen.Pre_finite_inputs
import proofs.«420171_j23390391894538_3_alg».proof.Proof.RefRun
import proofs.«420171_j23390391894538_3_alg».proof.Proof.RefRead
import proofs.«420171_j23390391894538_3_alg».proof.Proof.RefValue
import proofs.«420171_j23390391894538_3_alg».proof.Proof.KernelValue
import proofs.«420171_j23390391894538_3_alg».proof.Proof.PreDecode
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the batch's loss of the arguments: the kernel by its value run, the reference by its run read back, the
    index ranges from the precondition. -/
theorem algebraic : Cert.algebraic_KernelIdeal_ReferenceIdeal := by
  intro m ρ m' ρ' hpre hagree
  refine ⟨_, Cert.KernelIdeal.FocalValue.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2⟩ := Cert.PreDecode.ranges _ _ _ _ (hpre c)
  rw [Cert.ReferenceIdeal.Read.val_main_v59_eq, (hagree c).1, (hagree c).2.1, (hagree c).2.2.1, (hagree c).2.2.2]
  exact Cert.ReferenceIdeal.RefValue.val_eq_total _ _ _ _ h1 h2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
